-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S6000000x2 : Shape := ⟨2, ![6000000, 2]⟩
abbrev S16x3 : Shape := ⟨2, ![16, 3]⟩
abbrev S16 : Shape := ⟨1, ![16]⟩
abbrev S3x16 : Shape := ⟨2, ![3, 16]⟩
abbrev S3 : Shape := ⟨1, ![3]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S16x3 : S_.BroadcastsInDim S16x3 (![] : Fin 0 → Fin S16x3.rank)
  reducesTo_S16x3_S_d0_1 : S16x3.ReducesTo [0, 1] S_
  bcast_S_S16 : S_.BroadcastsInDim S16 (![] : Fin 0 → Fin S16.rank)
  reducesTo_S16_S_d0 : S16.ReducesTo [0] S_
  bcast_S_S3x16 : S_.BroadcastsInDim S3x16 (![] : Fin 0 → Fin S3x16.rank)
  reducesTo_S3x16_S_d0_1 : S3x16.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S3x16 .f32) (main_arg9 : FVec F S3 .f32) (main_v33 : IVec S_ 1) : IVec S_ 1 :=
  let main_v34 : FVec F S3x16 .f32 := Host.absf main_arg8
  let main_cst_12 : FVec F S_ .f32 := constant S_ .f32 0x7F800000#32
  let main_v35 : FVec F S3x16 .f32 := broadcastInDim S3x16 ![] bcast_S_S3x16 main_cst_12
  let main_v36 : IVec S3x16 1 := cmpf .olt main_v34 main_v35
  let main_c_13 : IVec S_ 1 := constantI S_ 1 1#1
  let main_v37 : IVec S_ 1 := (fun x v => Host.reduce IntOp.andi x v reducesTo_S3x16_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg5 : FVec F S16 .f32) (main_arg6 : FVec F S3x16 .f32) (main_arg7 : FVec F S3 .f32) (main_arg8 : FVec F S3x16 .f32) (main_arg9 : FVec F S3 .f32) (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S3x16 .f32 := Host.absf main_arg6
  let main_cst_8 : FVec F S_ .f32 := constant S_ .f32 0x7F800000#32
  let main_v25 : FVec F S3x16 .f32 := broadcastInDim S3x16 ![] bcast_S_S3x16 main_cst_8
  let main_v26 : IVec S3x16 1 := cmpf .olt main_v24 main_v25
  let main_c_9 : IVec S_ 1 := constantI S_ 1 1#1
  let main_v27 : IVec S_ 1 := (fun x v => Host.reduce IntOp.andi x v reducesTo_S3x16_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg8 main_arg9 main_v33

def fn {F : FTy → Type} [FloatOps F] (main_arg0 : FVec F S2000000x3 .f32) (main_arg1 : IVec S6000000x2 32) (main_arg2 : FVec F S16x3 .f32) (main_arg3 : FVec F S16 .f32) (main_arg4 : FVec F S16x3 .f32) (main_arg5 : FVec F S16 .f32) (main_arg6 : FVec F S3x16 .f32) (main_arg7 : FVec F S3 .f32) (main_arg8 : FVec F S3x16 .f32) (main_arg9 : FVec F S3 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S16x3 .f32 := Host.absf main_arg2
  let main_cst_0 : FVec F S_ .f32 := constant S_ .f32 0x7F800000#32
  let main_v5 : FVec F S16x3 .f32 := broadcastInDim S16x3 ![] bcast_S_S16x3 main_cst_0
  let main_v6 : IVec S16x3 1 := cmpf .olt main_v4 main_v5
  let main_c_1 : IVec S_ 1 := constantI S_ 1 1#1
  let main_v7 : IVec S_ 1 := (fun x v => Host.reduce IntOp.andi x v reducesTo_S16x3_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x3 .f32 := Host.absf main_arg4
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_arg5 main_arg6 main_arg7 main_arg8 main_arg9 main_v13 main_v16
-- ==== Kernel.lean ====
abbrev S2000000x3 : Shape := ⟨2, ![2000000, 3]⟩
abbrev S6000000x2 : Shape := ⟨2, ![6000000, 2]⟩
abbrev S16x3 : Shape := ⟨2, ![16, 3]⟩
abbrev S16 : Shape := ⟨1, ![16]⟩
abbrev S3x16 : Shape := ⟨2, ![3, 16]⟩
abbrev S3 : Shape := ⟨1, ![3]⟩
abbrev S32x3 : Shape := ⟨2, ![32, 3]⟩
abbrev S32 : Shape := ⟨1, ![32]⟩
abbrev S6x16 : Shape := ⟨2, ![6, 16]⟩
abbrev S6 : Shape := ⟨1, ![6]⟩
abbrev S6000000x1 : Shape := ⟨2, ![6000000, 1]⟩
abbrev S6000000 : Shape := ⟨1, ![6000000]⟩
abbrev S12000000 : Shape := ⟨1, ![12000000]⟩
abbrev S2000000x32 : Shape := ⟨2, ![2000000, 32]⟩
abbrev S10000x3 : Shape := ⟨2, ![10000, 3]⟩
abbrev S10000x32 : Shape := ⟨2, ![10000, 32]⟩
abbrev S3x32 : Shape := ⟨2, ![3, 32]⟩
abbrev S1x32 : Shape := ⟨2, ![1, 32]⟩
abbrev S2000000x16 : Shape := ⟨2, ![2000000, 16]⟩
abbrev S_ : Shape := ⟨0, ![]⟩
abbrev S6000000x16 : Shape := ⟨2, ![6000000, 16]⟩
abbrev S12000000x16 : Shape := ⟨2, ![12000000, 16]⟩
abbrev S12000000x1 : Shape := ⟨2, ![12000000, 1]⟩
abbrev S2000000x6 : Shape := ⟨2, ![2000000, 6]⟩
abbrev S10000x16 : Shape := ⟨2, ![10000, 16]⟩
abbrev S10000x6 : Shape := ⟨2, ![10000, 6]⟩
abbrev S16x6 : Shape := ⟨2, ![16, 6]⟩
abbrev S1x6 : Shape := ⟨2, ![1, 6]⟩
abbrev S6000000x3 : Shape := ⟨2, ![6000000, 3]⟩
abbrev S12000000x3 : Shape := ⟨2, ![12000000, 3]⟩

abbrev nBuf : Space → Nat
  | .hbm => 86
  | .vmem => 20
  | .smem => 0
  | _ => 0

abbrev bufTy : (tb : Table) → Fin (tcTables nBuf tb) → BufTy
  | .hbm, ⟨0, _⟩ => ⟨S2000000x3, .f32⟩
  | .hbm, ⟨1, _⟩ => ⟨S6000000x2, .i32⟩
  | .hbm, ⟨2, _⟩ => ⟨S16x3, .f32⟩
  | .hbm, ⟨3, _⟩ => ⟨S16, .f32⟩
  | .hbm, ⟨4, _⟩ => ⟨S16x3, .f32⟩
  | .hbm, ⟨5, _⟩ => ⟨S16, .f32⟩
  | .hbm, ⟨6, _⟩ => ⟨S3x16, .f32⟩
  | .hbm, ⟨7, _⟩ => ⟨S3, .f32⟩
  | .hbm, ⟨8, _⟩ => ⟨S3x16, .f32⟩
  | .hbm, ⟨9, _⟩ => ⟨S3, .f32⟩
  | .hbm, ⟨10, _⟩ => ⟨S32x3, .f32⟩
  | .hbm, ⟨11, _⟩ => ⟨S32, .f32⟩
  | .hbm, ⟨12, _⟩ => ⟨S6x16, .f32⟩
  | .hbm, ⟨13, _⟩ => ⟨S6, .f32⟩
  | .hbm, ⟨14, _⟩ => ⟨S6000000x1, .i32⟩
  | .hbm, ⟨15, _⟩ => ⟨S6000000, .i32⟩
  | .hbm, ⟨16, _⟩ => ⟨S6000000x1, .i32⟩
  | .hbm, ⟨17, _⟩ => ⟨S6000000, .i32⟩
  | .hbm, ⟨18, _⟩ => ⟨S12000000, .i32⟩
  | .hbm, ⟨19, _⟩ => ⟨S2000000x32, .f32⟩
  | .hbm, ⟨20, _⟩ => ⟨S2000000x16, .f32⟩
  | .hbm, ⟨21, _⟩ => ⟨S2000000x16, .f32⟩
  | .hbm, ⟨22, _⟩ => ⟨S_, .i32⟩
  | .hbm, ⟨23, _⟩ => ⟨S6000000, .i32⟩
  | .hbm, ⟨24, _⟩ => ⟨S6000000, .i1⟩
  | .hbm, ⟨25, _⟩ => ⟨S_, .i32⟩
  | .hbm, ⟨26, _⟩ => ⟨S6000000, .i32⟩
  | .hbm, ⟨27, _⟩ => ⟨S6000000, .i32⟩
  | .hbm, ⟨28, _⟩ => ⟨S6000000, .i32⟩
  | .hbm, ⟨29, _⟩ => ⟨S6000000x1, .i32⟩
  | .hbm, ⟨30, _⟩ => ⟨S6000000x16, .f32⟩
  | .hbm, ⟨31, _⟩ => ⟨S_, .i32⟩
  | .hbm, ⟨32, _⟩ => ⟨S6000000, .i32⟩
  | .hbm, ⟨33, _⟩ => ⟨S6000000, .i1⟩
  | .hbm, ⟨34, _⟩ => ⟨S_, .i32⟩
  | .hbm, ⟨35, _⟩ => ⟨S6000000, .i32⟩
  | .hbm, ⟨36, _⟩ => ⟨S6000000, .i32⟩
  | .hbm, ⟨37, _⟩ => ⟨S6000000, .i32⟩
  | .hbm, ⟨38, _⟩ => ⟨S6000000x1, .i32⟩
  | .hbm, ⟨39, _⟩ => ⟨S6000000x16, .f32⟩
  | .hbm, ⟨40, _⟩ => ⟨S12000000x16, .f32⟩
  | .hbm, ⟨41, _⟩ => ⟨S_, .f32⟩
  | .hbm, ⟨42, _⟩ => ⟨S2000000x16, .f32⟩
  | .hbm, ⟨43, _⟩ => ⟨S_, .i32⟩
  | .hbm, ⟨44, _⟩ => ⟨S12000000, .i32⟩
  | .hbm, ⟨45, _⟩ => ⟨S12000000, .i1⟩
  | .hbm, ⟨46, _⟩ => ⟨S_, .i32⟩
  | .hbm, ⟨47, _⟩ => ⟨S12000000, .i32⟩
  | .hbm, ⟨48, _⟩ => ⟨S12000000, .i32⟩
  | .hbm, ⟨49, _⟩ => ⟨S12000000, .i32⟩
  | .hbm, ⟨50, _⟩ => ⟨S12000000x1, .i32⟩
  | .hbm, ⟨51, _⟩ => ⟨S2000000x16, .f32⟩
  | .hbm, ⟨52, _⟩ => ⟨S2000000x6, .f32⟩
  | .hbm, ⟨53, _⟩ => ⟨S2000000x3, .f32⟩
  | .hbm, ⟨54, _⟩ => ⟨S2000000x3, .f32⟩
  | .hbm, ⟨55, _⟩ => ⟨S_, .i32⟩
  | .hbm, ⟨56, _⟩ => ⟨S6000000, .i32⟩
  | .hbm, ⟨57, _⟩ => ⟨S6000000, .i1⟩
  | .hbm, ⟨58, _⟩ => ⟨S_, .i32⟩
  | .hbm, ⟨59, _⟩ => ⟨S6000000, .i32⟩
  | .hbm, ⟨60, _⟩ => ⟨S6000000, .i32⟩
  | .hbm, ⟨61, _⟩ => ⟨S6000000, .i32⟩
  | .hbm, ⟨62, _⟩ => ⟨S6000000x1, .i32⟩
  | .hbm, ⟨63, _⟩ => ⟨S6000000x3, .f32⟩
  | .hbm, ⟨64, _⟩ => ⟨S_, .i32⟩
  | .hbm, ⟨65, _⟩ => ⟨S6000000, .i32⟩
  | .hbm, ⟨66, _⟩ => ⟨S6000000, .i1⟩
  | .hbm, ⟨67, _⟩ => ⟨S_, .i32⟩
  | .hbm, ⟨68, _⟩ => ⟨S6000000, .i32⟩
  | .hbm, ⟨69, _⟩ => ⟨S6000000, .i32⟩
  | .hbm, ⟨70, _⟩ => ⟨S6000000, .i32⟩
  | .hbm, ⟨71, _⟩ => ⟨S6000000x1, .i32⟩
  | .hbm, ⟨72, _⟩ => ⟨S6000000x3, .f32⟩
  | .hbm, ⟨73, _⟩ => ⟨S12000000x3, .f32⟩
  | .hbm, ⟨74, _⟩ => ⟨S_, .f32⟩
  | .hbm, ⟨75, _⟩ => ⟨S2000000x3, .f32⟩
  | .hbm, ⟨76, _⟩ => ⟨S_, .i32⟩
  | .hbm, ⟨77, _⟩ => ⟨S12000000, .i32⟩
  | .hbm, ⟨78, _⟩ => ⟨S12000000, .i1⟩
  | .hbm, ⟨79, _⟩ => ⟨S_, .i32⟩
  | .hbm, ⟨80, _⟩ => ⟨S12000000, .i32⟩
  | .hbm, ⟨81, _⟩ => ⟨S12000000, .i32⟩
  | .hbm, ⟨82, _⟩ => ⟨S12000000, .i32⟩
  | .hbm, ⟨83, _⟩ => ⟨S12000000x1, .i32⟩
  | .hbm, ⟨84, _⟩ => ⟨S2000000x3, .f32⟩
  | .hbm, ⟨85, _⟩ => ⟨S2000000x3, .f32⟩
  | .local _ .vmem, ⟨0, _⟩ => ⟨S10000x3, .f32⟩
  | .local _ .vmem, ⟨1, _⟩ => ⟨S10000x3, .f32⟩
  | .local _ .vmem, ⟨2, _⟩ => ⟨S32x3, .f32⟩
  | .local _ .vmem, ⟨3, _⟩ => ⟨S32, .f32⟩
  | .local _ .vmem, ⟨4, _⟩ => ⟨S10000x32, .f32⟩
  | .local _ .vmem, ⟨5, _⟩ => ⟨S10000x32, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S6x16, .f32⟩
  | .local _ .vmem, ⟨11, _⟩ => ⟨S6, .f32⟩
  | .local _ .vmem, ⟨12, _⟩ => ⟨S10000x6, .f32⟩
  | .local _ .vmem, ⟨13, _⟩ => ⟨S10000x6, .f32⟩
  | .local _ .vmem, ⟨14, _⟩ => ⟨S10000x3, .f32⟩
  | .local _ .vmem, ⟨15, _⟩ => ⟨S10000x3, .f32⟩
  | .local _ .vmem, ⟨16, _⟩ => ⟨S10000x3, .f32⟩
  | .local _ .vmem, ⟨17, _⟩ => ⟨S10000x3, .f32⟩
  | .local _ .vmem, ⟨18, _⟩ => ⟨S10000x3, .f32⟩
  | .local _ .vmem, ⟨19, _⟩ => ⟨S10000x3, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_7 : Ref sig .tc := ⟨.hbm, 64, rfl⟩
abbrev main_v45 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S6x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S6 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x6 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S16x3_S16x3_S32x3_d0 : Shape.Concatenates [S16x3, S16x3] S32x3 0
  concatenates_S16_S16_S32_d0 : Shape.Concatenates [S16, S16] S32 0
  concatenates_S3x16_S3x16_S6x16_d0 : Shape.Concatenates [S3x16, S3x16] S6x16 0
  concatenates_S3_S3_S6_d0 : Shape.Concatenates [S3, S3] S6 0
  slices_S6000000x2_S6000000x1_0_0 : S6000000x2.Slices ![0, 0] S6000000x1
  shapeCasts_S6000000x1_S6000000 : S6000000x1.ShapeCasts S6000000
  slices_S6000000x2_S6000000x1_0_1 : S6000000x2.Slices ![0, 1] S6000000x1
  concatenates_S6000000_S6000000_S12000000_d0 : Shape.Concatenates [S6000000, S6000000] S12000000 0
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S32x3_S32x3_0_0 : ∀ a, (![0, 0] : Fin 2 → Nat) a + S32x3.size a ≤ S32x3.size a
  h_S32x3 : 0 < S32x3.numel
  shapeCasts_S32x3_S32x3 : S32x3.ShapeCasts S32x3
  transposes_S32x3_p1_0_S3x32 : S32x3.Transposes [1, 0] S3x32
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  slices_S2000000x32_S2000000x16_0_0 : S2000000x32.Slices ![0, 0] S2000000x16
  slices_S2000000x32_S2000000x16_0_16 : S2000000x32.Slices ![0, 16] S2000000x16
  bcast_S_S6000000 : S_.BroadcastsInDim S6000000 (![] : Fin 0 → Fin S6000000.rank)
  bcast_S6000000_S6000000x1_0 : S6000000.BroadcastsInDim S6000000x1 (![0] : Fin 1 → Fin S6000000x1.rank)
  concatenates_S6000000x16_S6000000x16_S12000000x16_d0 : Shape.Concatenates [S6000000x16, S6000000x16] S12000000x16 0
  bcast_S_S2000000x16 : S_.BroadcastsInDim S2000000x16 (![] : Fin 0 → Fin S2000000x16.rank)
  bcast_S_S12000000 : S_.BroadcastsInDim S12000000 (![] : Fin 0 → Fin S12000000.rank)
  bcast_S12000000_S12000000x1_0 : S12000000.BroadcastsInDim S12000000x1 (![0] : Fin 1 → Fin S12000000x1.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S6x16_S6x16_0_0 : ∀ a, (![0, 0] : Fin 2 → Nat) a + S6x16.size a ≤ S6x16.size a
  h_S6x16 : 0 < S6x16.numel
  shapeCasts_S6x16_S6x16 : S6x16.ShapeCasts S6x16
  transposes_S6x16_p1_0_S16x6 : S6x16.Transposes [1, 0] S16x6
  inb_S6_S6_0 : ∀ a, (![0] : Fin 1 → Nat) a + S6.size a ≤ S6.size a
  h_S6 : 0 < S6.numel
  shapeCasts_S6_S6 : S6.ShapeCasts S6
  shapeCasts_S6_S1x6 : S6.ShapeCasts S1x6
  broadcasts_S1x6_S10000x6 : S1x6.Broadcasts S10000x6
  inb_S10000x6_S10000x6_0_0 : ∀ a, (![0, 0] : Fin 2 → Nat) a + S10000x6.size a ≤ S10000x6.size a
  h_S10000x6 : 0 < S10000x6.numel
  slices_S2000000x6_S2000000x3_0_0 : S2000000x6.Slices ![0, 0] S2000000x3
  slices_S2000000x6_S2000000x3_0_3 : S2000000x6.Slices ![0, 3] S2000000x3
  concatenates_S6000000x3_S6000000x3_S12000000x3_d0 : Shape.Concatenates [S6000000x3, S6000000x3] S12000000x3 0
  bcast_S_S2000000x3 : S_.BroadcastsInDim S2000000x3 (![] : Fin 0 → Fin S2000000x3.rank)
  shapeCasts_S10000x3_S10000x3 : S10000x3.ShapeCasts S10000x3
  dot_S10000x3_S3x32_S10000x32_1_0_0_1_n_n_wf : DotDims.WF S10000x3 S3x32 S10000x32 [1] [0] [0] [1] [] []
  gather_S2000000x16_S6000000x1_S6000000x16_1_0_n_n_0_1_116_wf : GatherDims.WF S2000000x16 S6000000x1 S6000000x16 [1] [0] [] [0] [] 1 ![1, 16]
  scatter_S2000000x16_S12000000x1_S12000000x16_1_0_0_1_wf : ScatterDims.WF S2000000x16 S12000000x1 S12000000x16 [1] [0] [0] 1
  dot_S10000x16_S16x6_S10000x6_1_0_0_1_n_n_wf : DotDims.WF S10000x16 S16x6 S10000x6 [1] [0] [0] [1] [] []
  gather_S2000000x3_S6000000x1_S6000000x3_1_0_n_n_0_1_13_wf : GatherDims.WF S2000000x3 S6000000x1 S6000000x3 [1] [0] [] [0] [] 1 ![1, 3]
  scatter_S2000000x3_S12000000x1_S12000000x3_1_0_0_1_wf : ScatterDims.WF S2000000x3 S12000000x1 S12000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S2000000x3.size a
  hwx0_0 : ∀ i : grid0.Coords, EltTy.bits .f32 = 32 ∨ (Rect.block (s := S2000000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x3.size a ≤ S32x3.size a
  hwx0_1 : ∀ i : grid0.Coords, EltTy.bits .f32 = 32 ∨ (Rect.block (s := S32x3) S32x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S2000000x32.size a
  hwx0_3 : ∀ i : grid0.Coords, EltTy.bits .f32 = 32 ∨ (Rect.block (s := S2000000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S2000000x16.size a
  hwx1_0 : ∀ i : grid1.Coords, EltTy.bits .f32 = 32 ∨ (Rect.block (s := S2000000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S2000000x16.size a
  hwx1_1 : ∀ i : grid1.Coords, EltTy.bits .f32 = 32 ∨ (Rect.block (s := S2000000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S6x16.size a ≤ S6x16.size a
  hwx1_2 : ∀ i : grid1.Coords, EltTy.bits .f32 = 32 ∨ (Rect.block (s := S6x16) S6x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6.size a ≤ S6.size a
  hwx1_3 : ∀ i : grid1.Coords, EltTy.bits .f32 = 32 ∨ (Rect.block (s := S6) S6.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x6.size a ≤ S2000000x6.size a
  hwx1_4 : ∀ i : grid1.Coords, EltTy.bits .f32 = 32 ∨ (Rect.block (s := S2000000x6) S10000x6.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x3.size a ≤ S2000000x3.size a
  hwx2_0 : ∀ i : grid2.Coords, EltTy.bits .f32 = 32 ∨ (Rect.block (s := S2000000x3) S10000x3.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x3.size a ≤ S2000000x3.size a
  hwx2_1 : ∀ i : grid2.Coords, EltTy.bits .f32 = 32 ∨ (Rect.block (s := S2000000x3) S10000x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x3.size a ≤ S2000000x3.size a
  hwx2_2 : ∀ i : grid2.Coords, EltTy.bits .f32 = 32 ∨ (Rect.block (s := S2000000x3) S10000x3.size (cc2_transform_2 i) (hinb2_2 i)).WholeWords (EltTy.packing .f32)

variable [Facts₀]

def dot_S10000x3_S3x32_S10000x32_1_0_0_1_n_n : DotDims S10000x3 S3x32 S10000x32 where
  lhsContracting := [1]
  rhsContracting := [0]
  lhsNonContracting := [0]
  rhsNonContracting := [1]
  lhsBatch := []
  rhsBatch := []
  wf := dot_S10000x3_S3x32_S10000x32_1_0_0_1_n_n_wf
def gather_S2000000x16_S6000000x1_S6000000x16_1_0_n_n_0_1_116 : GatherDims S2000000x16 S6000000x1 S6000000x16 where
  offsetDims := [1]
  collapsedSliceDims := [0]
  operandBatchingDims := []
  startIndicesBatchingDims := []
  startIndexMap := [0]
  indexVectorDim := 1
  sliceSizes := ![1, 16]
  wf := gather_S2000000x16_S6000000x1_S6000000x16_1_0_n_n_0_1_116_wf
def scatter_S2000000x16_S12000000x1_S12000000x16_1_0_0_1 : ScatterDims S2000000x16 S12000000x1 S12000000x16 where
  updateWindowDims := [1]
  insertedWindowDims := [0]
  scatterDimsToOperandDims := [0]
  indexVectorDim := 1
  wf := scatter_S2000000x16_S12000000x1_S12000000x16_1_0_0_1_wf
def dot_S10000x16_S16x6_S10000x6_1_0_0_1_n_n : DotDims S10000x16 S16x6 S10000x6 where
  lhsContracting := [1]
  rhsContracting := [0]
  lhsNonContracting := [0]
  rhsNonContracting := [1]
  lhsBatch := []
  rhsBatch := []
  wf := dot_S10000x16_S16x6_S10000x6_1_0_0_1_n_n_wf
def gather_S2000000x3_S6000000x1_S6000000x3_1_0_n_n_0_1_13 : GatherDims S2000000x3 S6000000x1 S6000000x3 where
  offsetDims := [1]
  collapsedSliceDims := [0]
  operandBatchingDims := []
  startIndicesBatchingDims := []
  startIndexMap := [0]
  indexVectorDim := 1
  sliceSizes := ![1, 3]
  wf := gather_S2000000x3_S6000000x1_S6000000x3_1_0_n_n_0_1_13_wf
def scatter_S2000000x3_S12000000x1_S12000000x3_1_0_0_1 : ScatterDims S2000000x3 S12000000x1 S12000000x3 where
  updateWindowDims := [1]
  insertedWindowDims := [0]
  scatterDimsToOperandDims := [0]
  indexVectorDim := 1
  wf := scatter_S2000000x3_S12000000x1_S12000000x3_1_0_0_1_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S6x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S6.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S10000x6.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36) S10000x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S10000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S10000x3.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2000000x3 : Shape := ⟨2, ![2000000, 3]⟩
abbrev S6000000x2 : Shape := ⟨2, ![6000000, 2]⟩
abbrev S16x3 : Shape := ⟨2, ![16, 3]⟩
abbrev S16 : Shape := ⟨1, ![16]⟩
abbrev S3x16 : Shape := ⟨2, ![3, 16]⟩
abbrev S3 : Shape := ⟨1, ![3]⟩
abbrev S2000000x16 : Shape := ⟨2, ![2000000, 16]⟩
abbrev S1x16 : Shape := ⟨2, ![1, 16]⟩
abbrev S6000000x1 : Shape := ⟨2, ![6000000, 1]⟩
abbrev S6000000 : Shape := ⟨1, ![6000000]⟩
abbrev S_ : Shape := ⟨0, ![]⟩
abbrev S6000000x16 : Shape := ⟨2, ![6000000, 16]⟩
abbrev S1x3 : Shape := ⟨2, ![1, 3]⟩
abbrev S6000000x3 : Shape := ⟨2, ![6000000, 3]⟩

abbrev nBuf : Space → Nat
  | .hbm => 119
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S6000000x2, .i32⟩
  | .hbm, ⟨2, _⟩ => ⟨S16x3, .f32⟩
  | .hbm, ⟨3, _⟩ => ⟨S16, .f32⟩
  | .hbm, ⟨4, _⟩ => ⟨S16x3, .f32⟩
  | .hbm, ⟨5, _⟩ => ⟨S16, .f32⟩
  | .hbm, ⟨6, _⟩ => ⟨S3x16, .f32⟩
  | .hbm, ⟨7, _⟩ => ⟨S3, .f32⟩
  | .hbm, ⟨8, _⟩ => ⟨S3x16, .f32⟩
  | .hbm, ⟨9, _⟩ => ⟨S3, .f32⟩
  | .hbm, ⟨10, _⟩ => ⟨S3x16, .f32⟩
  | .hbm, ⟨11, _⟩ => ⟨S2000000x16, .f32⟩
  | .hbm, ⟨12, _⟩ => ⟨S1x16, .f32⟩
  | .hbm, ⟨13, _⟩ => ⟨S2000000x16, .f32⟩
  | .hbm, ⟨14, _⟩ => ⟨S2000000x16, .f32⟩
  | .hbm, ⟨15, _⟩ => ⟨S3x16, .f32⟩
  | .hbm, ⟨16, _⟩ => ⟨S2000000x16, .f32⟩
  | .hbm, ⟨17, _⟩ => ⟨S1x16, .f32⟩
  | .hbm, ⟨18, _⟩ => ⟨S2000000x16, .f32⟩
  | .hbm, ⟨19, _⟩ => ⟨S2000000x16, .f32⟩
  | .hbm, ⟨20, _⟩ => ⟨S6000000x1, .i32⟩
  | .hbm, ⟨21, _⟩ => ⟨S6000000, .i32⟩
  | .hbm, ⟨22, _⟩ => ⟨S6000000x1, .i32⟩
  | .hbm, ⟨23, _⟩ => ⟨S6000000, .i32⟩
  | .hbm, ⟨24, _⟩ => ⟨S_, .f32⟩
  | .hbm, ⟨25, _⟩ => ⟨S2000000x16, .f32⟩
  | .hbm, ⟨26, _⟩ => ⟨S_, .i32⟩
  | .hbm, ⟨27, _⟩ => ⟨S6000000, .i32⟩
  | .hbm, ⟨28, _⟩ => ⟨S6000000, .i1⟩
  | .hbm, ⟨29, _⟩ => ⟨S_, .i32⟩
  | .hbm, ⟨30, _⟩ => ⟨S6000000, .i32⟩
  | .hbm, ⟨31, _⟩ => ⟨S6000000, .i32⟩
  | .hbm, ⟨32, _⟩ => ⟨S6000000, .i32⟩
  | .hbm, ⟨33, _⟩ => ⟨S6000000x1, .i32⟩
  | .hbm, ⟨34, _⟩ => ⟨S6000000x16, .f32⟩
  | .hbm, ⟨35, _⟩ => ⟨S_, .i32⟩
  | .hbm, ⟨36, _⟩ => ⟨S6000000, .i32⟩
  | .hbm, ⟨37, _⟩ => ⟨S6000000, .i1⟩
  | .hbm, ⟨38, _⟩ => ⟨S_, .i32⟩
  | .hbm, ⟨39, _⟩ => ⟨S6000000, .i32⟩
  | .hbm, ⟨40, _⟩ => ⟨S6000000, .i32⟩
  | .hbm, ⟨41, _⟩ => ⟨S6000000, .i32⟩
  | .hbm, ⟨42, _⟩ => ⟨S6000000x1, .i32⟩
  | .hbm, ⟨43, _⟩ => ⟨S2000000x16, .f32⟩
  | .hbm, ⟨44, _⟩ => ⟨S_, .i32⟩
  | .hbm, ⟨45, _⟩ => ⟨S6000000, .i32⟩
  | .hbm, ⟨46, _⟩ => ⟨S6000000, .i1⟩
  | .hbm, ⟨47, _⟩ => ⟨S_, .i32⟩
  | .hbm, ⟨48, _⟩ => ⟨S6000000, .i32⟩
  | .hbm, ⟨49, _⟩ => ⟨S6000000, .i32⟩
  | .hbm, ⟨50, _⟩ => ⟨S6000000, .i32⟩
  | .hbm, ⟨51, _⟩ => ⟨S6000000x1, .i32⟩
  | .hbm, ⟨52, _⟩ => ⟨S6000000x16, .f32⟩
  | .hbm, ⟨53, _⟩ => ⟨S_, .i32⟩
  | .hbm, ⟨54, _⟩ => ⟨S6000000, .i32⟩
  | .hbm, ⟨55, _⟩ => ⟨S6000000, .i1⟩
  | .hbm, ⟨56, _⟩ => ⟨S_, .i32⟩
  | .hbm, ⟨57, _⟩ => ⟨S6000000, .i32⟩
  | .hbm, ⟨58, _⟩ => ⟨S6000000, .i32⟩
  | .hbm, ⟨59, _⟩ => ⟨S6000000, .i32⟩
  | .hbm, ⟨60, _⟩ => ⟨S6000000x1, .i32⟩
  | .hbm, ⟨61, _⟩ => ⟨S2000000x16, .f32⟩
  | .hbm, ⟨62, _⟩ => ⟨S2000000x16, .f32⟩
  | .hbm, ⟨63, _⟩ => ⟨S_, .f32⟩
  | .hbm, ⟨64, _⟩ => ⟨S2000000x16, .f32⟩
  | .hbm, ⟨65, _⟩ => ⟨S2000000x16, .f32⟩
  | .hbm, ⟨66, _⟩ => ⟨S16x3, .f32⟩
  | .hbm, ⟨67, _⟩ => ⟨S2000000x3, .f32⟩
  | .hbm, ⟨68, _⟩ => ⟨S1x3, .f32⟩
  | .hbm, ⟨69, _⟩ => ⟨S2000000x3, .f32⟩
  | .hbm, ⟨70, _⟩ => ⟨S2000000x3, .f32⟩
  | .hbm, ⟨71, _⟩ => ⟨S16x3, .f32⟩
  | .hbm, ⟨72, _⟩ => ⟨S2000000x3, .f32⟩
  | .hbm, ⟨73, _⟩ => ⟨S1x3, .f32⟩
  | .hbm, ⟨74, _⟩ => ⟨S2000000x3, .f32⟩
  | .hbm, ⟨75, _⟩ => ⟨S2000000x3, .f32⟩
  | .hbm, ⟨76, _⟩ => ⟨S6000000x1, .i32⟩
  | .hbm, ⟨77, _⟩ => ⟨S6000000, .i32⟩
  | .hbm, ⟨78, _⟩ => ⟨S6000000x1, .i32⟩
  | .hbm, ⟨79, _⟩ => ⟨S6000000, .i32⟩
  | .hbm, ⟨80, _⟩ => ⟨S_, .f32⟩
  | .hbm, ⟨81, _⟩ => ⟨S2000000x3, .f32⟩
  | .hbm, ⟨82, _⟩ => ⟨S_, .i32⟩
  | .hbm, ⟨83, _⟩ => ⟨S6000000, .i32⟩
  | .hbm, ⟨84, _⟩ => ⟨S6000000, .i1⟩
  | .hbm, ⟨85, _⟩ => ⟨S_, .i32⟩
  | .hbm, ⟨86, _⟩ => ⟨S6000000, .i32⟩
  | .hbm, ⟨87, _⟩ => ⟨S6000000, .i32⟩
  | .hbm, ⟨88, _⟩ => ⟨S6000000, .i32⟩
  | .hbm, ⟨89, _⟩ => ⟨S6000000x1, .i32⟩
  | .hbm, ⟨90, _⟩ => ⟨S6000000x3, .f32⟩
  | .hbm, ⟨91, _⟩ => ⟨S_, .i32⟩
  | .hbm, ⟨92, _⟩ => ⟨S6000000, .i32⟩
  | .hbm, ⟨93, _⟩ => ⟨S6000000, .i1⟩
  | .hbm, ⟨94, _⟩ => ⟨S_, .i32⟩
  | .hbm, ⟨95, _⟩ => ⟨S6000000, .i32⟩
  | .hbm, ⟨96, _⟩ => ⟨S6000000, .i32⟩
  | .hbm, ⟨97, _⟩ => ⟨S6000000, .i32⟩
  | .hbm, ⟨98, _⟩ => ⟨S6000000x1, .i32⟩
  | .hbm, ⟨99, _⟩ => ⟨S2000000x3, .f32⟩
  | .hbm, ⟨100, _⟩ => ⟨S_, .i32⟩
  | .hbm, ⟨101, _⟩ => ⟨S6000000, .i32⟩
  | .hbm, ⟨102, _⟩ => ⟨S6000000, .i1⟩
  | .hbm, ⟨103, _⟩ => ⟨S_, .i32⟩
  | .hbm, ⟨104, _⟩ => ⟨S6000000, .i32⟩
  | .hbm, ⟨105, _⟩ => ⟨S6000000, .i32⟩
  | .hbm, ⟨106, _⟩ => ⟨S6000000, .i32⟩
  | .hbm, ⟨107, _⟩ => ⟨S6000000x1, .i32⟩
  | .hbm, ⟨108, _⟩ => ⟨S6000000x3, .f32⟩
  | .hbm, ⟨109, _⟩ => ⟨S_, .i32⟩
  | .hbm, ⟨110, _⟩ => ⟨S6000000, .i32⟩
  | .hbm, ⟨111, _⟩ => ⟨S6000000, .i1⟩
  | .hbm, ⟨112, _⟩ => ⟨S_, .i32⟩
  | .hbm, ⟨113, _⟩ => ⟨S6000000, .i32⟩
  | .hbm, ⟨114, _⟩ => ⟨S6000000, .i32⟩
  | .hbm, ⟨115, _⟩ => ⟨S6000000, .i32⟩
  | .hbm, ⟨116, _⟩ => ⟨S6000000x1, .i32⟩
  | .hbm, ⟨117, _⟩ => ⟨S2000000x3, .f32⟩
  | .hbm, ⟨118, _⟩ => ⟨S2000000x3, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_v59 : Ref sig .tc := ⟨.hbm, 81, rfl⟩
abbrev main_c_8 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_10 : Ref sig .tc := ⟨.hbm, 91, rfl⟩
abbrev main_v67 : Ref sig .tc := ⟨.hbm, 92, rfl⟩
abbrev main_v68 : Ref sig .tc := ⟨.hbm, 93, rfl⟩
abbrev main_c_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_c_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_14 : Ref sig .tc := ⟨.hbm, 109, rfl⟩
abbrev main_v81 : Ref sig .tc := ⟨.hbm, 110, rfl⟩
abbrev main_v82 : Ref sig .tc := ⟨.hbm, 111, rfl⟩
abbrev main_c_15 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]

class Facts₀ : Prop where
  transposes_S16x3_S3x16_1_0 : S16x3.Transposes [1, 0] S3x16
  bcast_S16_S1x16_1 : S16.BroadcastsInDim S1x16 (![1] : Fin 1 → Fin S1x16.rank)
  bcast_S1x16_S2000000x16_0_1 : S1x16.BroadcastsInDim S2000000x16 (![0, 1] : Fin 2 → Fin S2000000x16.rank)
  slices_S6000000x2_S6000000x1_0_0 : S6000000x2.Slices ![0, 0] S6000000x1
  shapeCasts_S6000000x1_S6000000 : S6000000x1.ShapeCasts S6000000
  slices_S6000000x2_S6000000x1_0_1 : S6000000x2.Slices ![0, 1] S6000000x1
  bcast_S_S2000000x16 : S_.BroadcastsInDim S2000000x16 (![] : Fin 0 → Fin S2000000x16.rank)
  bcast_S_S6000000 : S_.BroadcastsInDim S6000000 (![] : Fin 0 → Fin S6000000.rank)
  bcast_S6000000_S6000000x1_0 : S6000000.BroadcastsInDim S6000000x1 (![0] : Fin 1 → Fin S6000000x1.rank)
  transposes_S3x16_S16x3_1_0 : S3x16.Transposes [1, 0] S16x3
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  bcast_S_S2000000x3 : S_.BroadcastsInDim S2000000x3 (![] : Fin 0 → Fin S2000000x3.rank)
  dot_S2000000x3_S3x16_S2000000x16_1_0_0_1_n_n_wf : DotDims.WF S2000000x3 S3x16 S2000000x16 [1] [0] [0] [1] [] []
  gather_S2000000x16_S6000000x1_S6000000x16_1_0_n_n_0_1_116_wf : GatherDims.WF S2000000x16 S6000000x1 S6000000x16 [1] [0] [] [0] [] 1 ![1, 16]
  scatter_S2000000x16_S6000000x1_S6000000x16_1_0_0_1_wf : ScatterDims.WF S2000000x16 S6000000x1 S6000000x16 [1] [0] [0] 1
  dot_S2000000x16_S16x3_S2000000x3_1_0_0_1_n_n_wf : DotDims.WF S2000000x16 S16x3 S2000000x3 [1] [0] [0] [1] [] []
  gather_S2000000x3_S6000000x1_S6000000x3_1_0_n_n_0_1_13_wf : GatherDims.WF S2000000x3 S6000000x1 S6000000x3 [1] [0] [] [0] [] 1 ![1, 3]
  scatter_S2000000x3_S6000000x1_S6000000x3_1_0_0_1_wf : ScatterDims.WF S2000000x3 S6000000x1 S6000000x3 [1] [0] [0] 1

variable [Facts₀]

def dot_S2000000x3_S3x16_S2000000x16_1_0_0_1_n_n : DotDims S2000000x3 S3x16 S2000000x16 where
  lhsContracting := [1]
  rhsContracting := [0]
  lhsNonContracting := [0]
  rhsNonContracting := [1]
  lhsBatch := []
  rhsBatch := []
  wf := dot_S2000000x3_S3x16_S2000000x16_1_0_0_1_n_n_wf
def gather_S2000000x16_S6000000x1_S6000000x16_1_0_n_n_0_1_116 : GatherDims S2000000x16 S6000000x1 S6000000x16 where
  offsetDims := [1]
  collapsedSliceDims := [0]
  operandBatchingDims := []
  startIndicesBatchingDims := []
  startIndexMap := [0]
  indexVectorDim := 1
  sliceSizes := ![1, 16]
  wf := gather_S2000000x16_S6000000x1_S6000000x16_1_0_n_n_0_1_116_wf
def scatter_S2000000x16_S6000000x1_S6000000x16_1_0_0_1 : ScatterDims S2000000x16 S6000000x1 S6000000x16 where
  updateWindowDims := [1]
  insertedWindowDims := [0]
  scatterDimsToOperandDims := [0]
  indexVectorDim := 1
  wf := scatter_S2000000x16_S6000000x1_S6000000x16_1_0_0_1_wf
def dot_S2000000x16_S16x3_S2000000x3_1_0_0_1_n_n : DotDims S2000000x16 S16x3 S2000000x3 where
  lhsContracting := [1]
  rhsContracting := [0]
  lhsNonContracting := [0]
  rhsNonContracting := [1]
  lhsBatch := []
  rhsBatch := []
  wf := dot_S2000000x16_S16x3_S2000000x3_1_0_0_1_n_n_wf
def gather_S2000000x3_S6000000x1_S6000000x3_1_0_n_n_0_1_13 : GatherDims S2000000x3 S6000000x1 S6000000x3 where
  offsetDims := [1]
  collapsedSliceDims := [0]
  operandBatchingDims := []
  startIndicesBatchingDims := []
  startIndexMap := [0]
  indexVectorDim := 1
  sliceSizes := ![1, 3]
  wf := gather_S2000000x3_S6000000x1_S6000000x3_1_0_n_n_0_1_13_wf
def scatter_S2000000x3_S6000000x1_S6000000x3_1_0_0_1 : ScatterDims S2000000x3 S6000000x1 S6000000x3 where
  updateWindowDims := [1]
  insertedWindowDims := [0]
  scatterDimsToOperandDims := [0]
  indexVectorDim := 1
  wf := scatter_S2000000x3_S6000000x1_S6000000x3_1_0_0_1_wf

class Facts : Prop extends Facts₀ where

variable [Facts]
-- ==== Proof.Spec.lean ====
/-
  The mathematics both programs compute, on the extended reals.

  A DENSE LAYER takes a matrix X of n rows and k columns, a weight matrix W of o rows and k columns and a bias
  vector B of o entries to the matrix whose entry (r, c) is  Σ_κ X[r, κ] · W[c, κ]  +  B[c]:  row r of X against row c of
  W, plus the bias of column c.  RELU is the maximum with zero, entry by entry.
-/
import Idealize.ShloMosaic.PureOps.Ideal
import Idealize.ShloMosaic.Lib.ValueIdx

noncomputable section

open scoped BigOperators

namespace Cert.Spec

open Idealize.ShloMosaic Idealize.ShloMosaic.ValueIdx

/-- Entry (r, c) of a dense layer: row r of X against row c of W, plus the bias of column c. -/
def dense {n k o : Nat} (X : FVec Ideal ⟨2, ![n, k]⟩ .f32) (W : FVec Ideal ⟨2, ![o, k]⟩ .f32)
    (B : FVec Ideal ⟨1, ![o]⟩ .f32) : FVec Ideal ⟨2, ![n, o]⟩ .f32 :=
  fun i => (∑ κ : Fin k, X (ix2 (i 0) κ) * W (ix2 (i 1) κ)) + B (ix1 (i 1))

theorem dense_apply {n k o : Nat} (X : FVec Ideal ⟨2, ![n, k]⟩ .f32) (W : FVec Ideal ⟨2, ![o, k]⟩ .f32)
    (B : FVec Ideal ⟨1, ![o]⟩ .f32) (r : Fin n) (c : Fin o) :
    dense X W B (ix2 r c) = (∑ κ : Fin k, X (ix2 r κ) * W (ix2 c κ)) + B (ix1 c) := rfl

/-- The maximum with zero, entry by entry (zero written as the float word both programs print). -/
def relu {s : Shape} (x : FVec Ideal s .f32) : FVec Ideal s .f32 :=
  fun i => max (x i) (Ideal.ofBits .f32 0x00000000#32)

/-- The entrywise sum of two arrays. -/
def plus {s : Shape} (x y : FVec Ideal s .f32) : FVec Ideal s .f32 := fun i => x i + y i

end Cert.Spec

end
-- ==== Proof.Region0.lean ====
/-
  The first kernel region: the array it leaves is a dense layer of the arrays it finds.

  The grid has 200 points; point t fetches rows 10000 t … 10000 t + 9999 of the vertex array (3 columns), the whole
  32 × 3 weight matrix and the whole bias vector, and writes back rows 10000 t … 10000 t + 9999 of the 32-column result.
  The body's value at (p, q) of the block is  Σ_κ x[p, κ] · w[q, κ] + b[q]  (a matrix product into a zero accumulator,
  the second factor transposed, the bias broadcast down the rows; format changes are the identity on the extended
  reals).  The blocks tile the result array, so the whole array is the dense layer of the whole arrays.
-/
import proofs.«110151_j90297392431231_1_alg».proof.Proof.Gen.KernelIdeal.Frame
import proofs.«110151_j90297392431231_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace R0

/-! ## The body's value at an entry of its block -/

/-- The origin of a rank-2 shape, as the constant function. -/
theorem zero_pair : (![0, 0] : Fin 2 → Nat) = fun _ => 0 := funext fun a => by
  match a with
  | ⟨0, _⟩ => rfl
  | ⟨1, _⟩ => rfl

/-- The origin of a rank-1 shape, as the constant function. -/
theorem zero_single : (![0] : Fin 1 → Nat) = fun _ => 0 := funext fun a => by
  match a with
  | ⟨0, _⟩ => rfl

/-- The left factor of the product is read at the result's row … -/
theorem product_left_row (i : S10000x32.Idx) (q : dot_S10000x3_S3x32_S10000x32_1_0_0_1_n_n.contr.Idx) :
    (dot_S10000x3_S3x32_S10000x32_1_0_0_1_n_n.lhsIdx i q 0).val = (i 0).val := by
  unfold DotDims.lhsIdx
  rw [dif_neg (show ¬(0 : Fin S10000x3.rank) ∈ dot_S10000x3_S3x32_S10000x32_1_0_0_1_n_n.lhsBatch by decide), dif_pos (show (0 : Fin S10000x3.rank) ∈ dot_S10000x3_S3x32_S10000x32_1_0_0_1_n_n.lhsNonContracting by decide)]
  rfl
/-- … and the summation index; -/
theorem product_left_col (i : S10000x32.Idx) (q : dot_S10000x3_S3x32_S10000x32_1_0_0_1_n_n.contr.Idx) :
    (dot_S10000x3_S3x32_S10000x32_1_0_0_1_n_n.lhsIdx i q 1).val = (q ⟨0, by decide⟩).val :=
  dot_S10000x3_S3x32_S10000x32_1_0_0_1_n_n.lhsIdx_val_of_single rfl i q
/-- the right factor at the summation index … -/
theorem product_right_row (i : S10000x32.Idx) (q : dot_S10000x3_S3x32_S10000x32_1_0_0_1_n_n.contr.Idx) :
    (dot_S10000x3_S3x32_S10000x32_1_0_0_1_n_n.rhsIdx i q 0).val = (q ⟨0, by decide⟩).val :=
  dot_S10000x3_S3x32_S10000x32_1_0_0_1_n_n.rhsIdx_val_of_single rfl i q
/-- … and the result's column. -/
theorem product_right_col (i : S10000x32.Idx) (q : dot_S10000x3_S3x32_S10000x32_1_0_0_1_n_n.contr.Idx) :
    (dot_S10000x3_S3x32_S10000x32_1_0_0_1_n_n.rhsIdx i q 1).val = (i 1).val := by
  unfold DotDims.rhsIdx
  rw [dif_neg (show ¬(1 : Fin S3x32.rank) ∈ dot_S10000x3_S3x32_S10000x32_1_0_0_1_n_n.rhsBatch by decide), dif_pos (show (1 : Fin S3x32.rank) ∈ dot_S10000x3_S3x32_S10000x32_1_0_0_1_n_n.rhsNonContracting by decide)]
  rfl

/-- A matrix product into the zero accumulator, at entry (p, q): row p of the left factor against column q of the right. -/
theorem product_apply (a : FVec Ideal S10000x3 .bf16) (b : FVec Ideal S3x32 .bf16) (p : Fin 10000) (q : Fin 32) :
    matmul dot_S10000x3_S3x32_S10000x32_1_0_0_1_n_n none a b (constant (F := Ideal) S10000x32 .f32 0x00000000#32) (ix2 p q)
      = ∑ κ : Fin 3, a (ix2 p κ) * b (ix2 κ q) := by
  refine (Ideal.matmul_constant_zero_apply _ none a b (ix2 p q)).trans ?_
  rw [← Equiv.sum_comp (contrEquiv1 dot_S10000x3_S3x32_S10000x32_1_0_0_1_n_n 3 rfl rfl).symm]
  refine Finset.sum_congr rfl fun κ _ => ?_
  have hκ := contrEquiv1_symm_val dot_S10000x3_S3x32_S10000x32_1_0_0_1_n_n 3 rfl rfl κ
  have el : dot_S10000x3_S3x32_S10000x32_1_0_0_1_n_n.lhsIdx (ix2 p q) ((contrEquiv1 dot_S10000x3_S3x32_S10000x32_1_0_0_1_n_n 3 rfl rfl).symm κ) = ix2 p κ := funext fun x => Fin.ext (by
    match x with
    | ⟨0, _⟩ => exact product_left_row _ _
    | ⟨1, _⟩ => exact (product_left_col _ _).trans hκ)
  have er : dot_S10000x3_S3x32_S10000x32_1_0_0_1_n_n.rhsIdx (ix2 p q) ((contrEquiv1 dot_S10000x3_S3x32_S10000x32_1_0_0_1_n_n 3 rfl rfl).symm κ) = ix2 κ q := funext fun x => Fin.ext (by
    match x with
    | ⟨0, _⟩ => exact (product_right_row _ _).trans hκ
    | ⟨1, _⟩ => exact product_right_col _ _)
  rw [el, er]

/-- The transposed weights at (κ, q) are the weights at (q, κ). -/
theorem weights_transposed_apply (w : FVec Ideal S32x3 .bf16) (κ : Fin 3) (q : Fin 32) :
    transpose S3x32 [1, 0] w transposes_S32x3_p1_0_S3x32 (ix2 κ q) = w (ix2 q κ) :=
  transpose_apply [1, 0] w transposes_S32x3_p1_0_S3x32 (ix2 κ q) (ix2 q κ) (fun b => match b with
    | ⟨0, _⟩ => rfl
    | ⟨1, _⟩ => rfl)

/-- The bias vector laid out as one row and repeated down the rows: at (p, q) it is the bias of column q. -/
theorem bias_rows_apply (b : FVec Ideal S32 .f32) (p : Fin 10000) (q : Fin 32) :
    broadcastTo S10000x32 (shapeCast S1x32 b shapeCasts_S32_S1x32) broadcasts_S1x32_S10000x32 (ix2 p q) = b (ix1 q) := by
  refine (broadcastTo_apply _ broadcasts_S1x32_S10000x32 (ix2 p q) (ix2 (0 : Fin 1) q) (fun a => match a with
    | ⟨0, _⟩ => rfl
    | ⟨1, _⟩ => rfl)).trans ?_
  refine (shapeCast_addUnit_apply ![32] b shapeCasts_S32_S1x32 (ix2 (0 : Fin 1) q)).trans ?_
  exact congrArg b (funext fun a => match a with | ⟨0, _⟩ => rfl)

/-- The body's value at entry (p, q) of its block: row p of the vertex block against row q of the weights, plus the
    bias of column q. -/
theorem body_apply (x0 : Vec Ideal S10000x3 .f32) (x1 : Vec Ideal S32x3 .f32) (x2 : Vec Ideal S32 .f32) (p : Fin 10000) (q : Fin 32) :
    k0_pay1 x0 x1 x2 (ix2 p q) = (∑ κ : Fin 3, x0 (ix2 p κ) * x1 (ix2 q κ)) + x2 (ix1 q) := by
  unfold k0_pay1
  simp only [shapeCast_self]
  rw [addf_apply, product_apply, bias_rows_apply]
  refine congrArg (· + x2 (ix1 q)) (Finset.sum_congr rfl fun κ _ => ?_)
  rw [weights_transposed_apply, truncf_apply, truncf_apply]

/-- The body's value at (p, q) is the dense layer's entry at an index i of the whole result, once row p of the vertex
    block is row i₀ of the vertex array, row q of the weight block is row i₁ of the weights and entry q of the bias block
    is entry i₁ of the bias. -/
theorem body_eq_dense (X : FVec Ideal S2000000x3 .f32) (W : FVec Ideal S32x3 .f32) (B : FVec Ideal S32 .f32)
    (x0 : Vec Ideal S10000x3 .f32) (x1 : Vec Ideal S32x3 .f32) (x2 : Vec Ideal S32 .f32)
    (i : S2000000x32.Idx) (p : Fin 10000) (q : Fin 32)
    (hx : ∀ κ : Fin 3, x0 (ix2 p κ) = X (ix2 (i 0) κ)) (hw : ∀ κ : Fin 3, x1 (ix2 q κ) = W (ix2 (i 1) κ))
    (hb : x2 (ix1 q) = B (ix1 (i 1))) :
    k0_pay1 x0 x1 x2 (ix2 p q) = Cert.Spec.dense X W B i := by
  rw [body_apply, hb]
  refine congrArg (· + B (ix1 (i 1))) (Finset.sum_congr rfl fun κ _ => ?_)
  rw [hx, hw]

/-! ## From the blocks to the array -/

/-- The windows' block indices, decided over the grid's 200 points: the vertex window and the result window are at row
    block t, column block 0; the weight matrix and the bias vector are fetched whole (block 0 on every axis). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- An index of the result array is in point t's block iff each coordinate is in the block's range on its axis. -/
theorem mem_block (t : Fin cfg0.N) (i : S2000000x32.Idx) :
    i ∈ ((cfg0.win 3).blk t).view.set ↔ ∀ a : Fin 2, win0_3.index t a * S10000x32.size a ≤ (i a).val ∧ (i a).val < win0_3.index t a * S10000x32.size a + S10000x32.size a := by
  show i ∈ ((View.whole main_v9).slice (win0_3.rect t)).set ↔ _
  rw [View.set_slice_whole, Rect.mem_set_unit]
  exact Iff.rfl

/-- The blocks tile the result array: row r is in the block of point r / 10000, which is written back. -/
theorem blocks_cover (i : S2000000x32.Idx) :
    ∃ t : Fin cfg0.N, (cfg0.win 3).flush t = true ∧ i ∈ ((cfg0.win 3).blk t).view.set := by
  have hi0 : (i 0).val < 2000000 := (i 0).isLt
  have hi1 : (i 1).val < 32 := (i 1).isLt
  have hN : cfg0.N = 200 := N_0
  obtain ⟨t, ht⟩ : ∃ t : Fin cfg0.N, t.val = (i 0).val / 10000 := ⟨⟨(i 0).val / 10000, by omega⟩, rfl⟩
  obtain ⟨-, -, -, -, -, e30, e31⟩ := block_indices t
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 32 ≤ (i 1).val ∧ (i 1).val < win0_3.index t (1 : Fin 2) * 32 + 32; omega

/-- What point t writes back is block t of the dense layer of the arrays as the region finds them: rows
    10000 t … 10000 t + 9999. -/
theorem written_block (c : Dev nD) (t : Fin cfg0.N) :
    (dat0 (F := Ideal) V c).flushed 3 t
      = ((cfg0.win 3).blk t).view.read (Elt Ideal) (Cert.Spec.dense (V c main_arg0) (V c main_v0) (V c main_v1)) := by
  show (cfg0.win 3).cut (grid0.coords t) ((dat0 V c).after 3 t) = _
  rw [after0_3]
  unfold out0_3
  rw [View.canon_unit_zero zero_pair]
  simp only [View.ld_unit_zero (S := S10000x3) zero_pair, View.ld_unit_zero (S := S32x3) zero_pair, View.ld_unit_zero (S := S32) zero_single]
  obtain ⟨e00, e01, e10, e11, e20, e30, e31⟩ := block_indices t
  funext j
  obtain ⟨p, q, rfl⟩ : ∃ (p : Fin 10000) (q : Fin 32), j = ix2 p q := ⟨j 0, j 1, eq_ix2 j⟩
  show k0_pay1 (iblk0 V c 0 t) (iblk0 V c 1 t) (iblk0 V c 2 t) (ix2 p q)
    = Cert.Spec.dense (V c main_arg0) (V c main_v0) (V c main_v1) (((cfg0.win 3).blk t).view.emb (ix2 p q))
  refine body_eq_dense _ _ _ _ _ _ _ p q (fun κ => ?_) (fun κ => ?_) ?_
  · show V c main_arg0 (((cfg0.win 0).blk t).view.emb (ix2 p κ)) = V c main_arg0 _
    refine congrArg (V c main_arg0) (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 3 + 1 * κ.val = κ.val; omega
  · show V c main_v0 (((cfg0.win 1).blk t).view.emb (ix2 q κ)) = V c main_v0 _
    refine congrArg (V c main_v0) (funext fun a => Fin.ext ?_)
    match a with
    | ⟨0, _⟩ => show win0_1.index t (0 : Fin 2) * 32 + 1 * q.val = win0_3.index t (1 : Fin 2) * 32 + 1 * q.val; omega
    | ⟨1, _⟩ => show win0_1.index t (1 : Fin 2) * 3 + 1 * κ.val = κ.val; omega
  · show V c main_v1 (((cfg0.win 2).blk t).view.emb (ix1 q)) = V c main_v1 _
    refine congrArg (V c main_v1) (funext fun a => Fin.ext ?_)
    match a with
    | ⟨0, _⟩ => show win0_2.index t (0 : Fin 1) * 32 + 1 * q.val = win0_3.index t (1 : Fin 2) * 32 + 1 * q.val; omega

end R0

/-- What region 0 leaves in its result array: the dense layer of the three arrays it reads, as it finds them. -/
theorem arr0 (c : Dev nD) :
    (dat0 (F := Ideal) V c).arrAt 3 cfg0.N = Cert.Spec.dense (V c main_arg0) (V c main_v0) (V c main_v1) := by
  exact (dat0 (F := Ideal) V c).arrAt_eq_of_cover 3 _ (fun t _ => R0.written_block V c t) R0.blocks_cover

end Cert.KernelIdeal.RegionValue

end
-- ==== Proof.Region1.lean ====
/-
  The second kernel region: the array it leaves is a dense layer of the rectified sum of two of the arrays it finds.

  The grid has 200 points; point t fetches rows 10000 t … 10000 t + 9999 of the two 16-column arrays, the whole 6 × 16
  weight matrix and the whole bias vector, and writes back the same rows of the 6-column result.  The body's value at
  (p, q) of the block is  Σ_κ max(h[p, κ] + a[p, κ], 0) · w[q, κ] + b[q].  The blocks tile the result array.
-/
import proofs.«110151_j90297392431231_1_alg».proof.Proof.Gen.KernelIdeal.Frame
import proofs.«110151_j90297392431231_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace R1

/-- A block that starts at the origin of its buffer: the offset, as a constant function. -/
theorem origin2 : (![0, 0] : Fin 2 → Nat) = fun _ => 0 := funext fun a => by fin_cases a <;> rfl

/-- The same for the bias vector's one axis. -/
theorem origin1 : (![0] : Fin 1 → Nat) = fun _ => 0 := funext fun a => by fin_cases a; rfl

/-! ## The product's operand indices

At output entry (p, q) and contraction index κ the left operand is read at (p, κ) and the right operand, the
transposed weight matrix, at (κ, q). -/

theorem lhs_row (i : S10000x6.Idx) (k : dot_S10000x16_S16x6_S10000x6_1_0_0_1_n_n.contr.Idx) :
    (dot_S10000x16_S16x6_S10000x6_1_0_0_1_n_n.lhsIdx i k 0).val = (i 0).val := by
  unfold DotDims.lhsIdx
  rw [dif_neg (show ¬(0 : Fin S10000x16.rank) ∈ dot_S10000x16_S16x6_S10000x6_1_0_0_1_n_n.lhsBatch by decide),
    dif_pos (show (0 : Fin S10000x16.rank) ∈ dot_S10000x16_S16x6_S10000x6_1_0_0_1_n_n.lhsNonContracting by decide)]
  rfl

theorem lhs_col (i : S10000x6.Idx) (k : dot_S10000x16_S16x6_S10000x6_1_0_0_1_n_n.contr.Idx) :
    (dot_S10000x16_S16x6_S10000x6_1_0_0_1_n_n.lhsIdx i k 1).val = (k ⟨0, by decide⟩).val :=
  dot_S10000x16_S16x6_S10000x6_1_0_0_1_n_n.lhsIdx_val_of_single rfl i k

theorem rhs_row (i : S10000x6.Idx) (k : dot_S10000x16_S16x6_S10000x6_1_0_0_1_n_n.contr.Idx) :
    (dot_S10000x16_S16x6_S10000x6_1_0_0_1_n_n.rhsIdx i k 0).val = (k ⟨0, by decide⟩).val :=
  dot_S10000x16_S16x6_S10000x6_1_0_0_1_n_n.rhsIdx_val_of_single rfl i k

theorem rhs_col (i : S10000x6.Idx) (k : dot_S10000x16_S16x6_S10000x6_1_0_0_1_n_n.contr.Idx) :
    (dot_S10000x16_S16x6_S10000x6_1_0_0_1_n_n.rhsIdx i k 1).val = (i 1).val := by
  unfold DotDims.rhsIdx
  rw [dif_neg (show ¬(1 : Fin S16x6.rank) ∈ dot_S10000x16_S16x6_S10000x6_1_0_0_1_n_n.rhsBatch by decide),
    dif_pos (show (1 : Fin S16x6.rank) ∈ dot_S10000x16_S16x6_S10000x6_1_0_0_1_n_n.rhsNonContracting by decide)]
  rfl

/-- The product into a zero accumulator at (p, q): row p of the left operand against column q of the right. -/
theorem product_at (L : FVec Ideal S10000x16 .bf16) (R : FVec Ideal S16x6 .bf16) (p : Fin 10000) (q : Fin 6) :
    matmul dot_S10000x16_S16x6_S10000x6_1_0_0_1_n_n none L R (constant (F := Ideal) S10000x6 .f32 0x00000000#32) (ix2 p q)
      = ∑ κ : Fin 16, L (ix2 p κ) * R (ix2 κ q) := by
  show FloatOps.matmul dot_S10000x16_S16x6_S10000x6_1_0_0_1_n_n none L R (constant (F := Ideal) S10000x6 .f32 0x00000000#32) (ix2 p q) = _
  rw [Ideal.matmul_constant_zero_apply, ← Equiv.sum_comp (contrEquiv1 dot_S10000x16_S16x6_S10000x6_1_0_0_1_n_n 16 rfl rfl).symm]
  refine Finset.sum_congr rfl fun κ _ => ?_
  have hκ := contrEquiv1_symm_val dot_S10000x16_S16x6_S10000x6_1_0_0_1_n_n 16 rfl rfl κ
  have el : dot_S10000x16_S16x6_S10000x6_1_0_0_1_n_n.lhsIdx (ix2 p q) ((contrEquiv1 dot_S10000x16_S16x6_S10000x6_1_0_0_1_n_n 16 rfl rfl).symm κ) = ix2 p κ :=
    funext fun a => Fin.ext (by
      match a with
      | ⟨0, _⟩ => exact lhs_row _ _
      | ⟨1, _⟩ => exact (lhs_col _ _).trans hκ)
  have er : dot_S10000x16_S16x6_S10000x6_1_0_0_1_n_n.rhsIdx (ix2 p q) ((contrEquiv1 dot_S10000x16_S16x6_S10000x6_1_0_0_1_n_n 16 rfl rfl).symm κ) = ix2 κ q :=
    funext fun a => Fin.ext (by
      match a with
      | ⟨0, _⟩ => exact (rhs_row _ _).trans hκ
      | ⟨1, _⟩ => exact rhs_col _ _)
  rw [el, er]

/-- The body's value at entry (p, q) of the block: row p of the rectified sum of the two loaded blocks against row q of
    the weight matrix, plus entry q of the bias. -/
theorem body_dense (x0 x1 : Vec Ideal S10000x16 .f32) (w : Vec Ideal S6x16 .f32) (b : Vec Ideal S6 .f32)
    (p : Fin 10000) (q : Fin 6) :
    k1_pay1 x0 x1 w b (ix2 p q)
      = (∑ κ : Fin 16, max (x0 (ix2 p κ) + x1 (ix2 p κ)) (Ideal.ofBits .f32 0x00000000#32) * w (ix2 q κ))
        + b (ix1 q) := by
  unfold k1_pay1
  simp only [shapeCast_self]
  rw [addf_apply, product_at, broadcastTo_1b_ab_apply, shapeCast_a_1a_apply]
  refine congrArg (· + b (ix1 q)) (Finset.sum_congr rfl fun κ _ => ?_)
  rw [transpose_ix2_apply]
  rfl

/-- One entry of a point's block against the whole-array specification.  If the block's rows are rows
    10000 n … 10000 n + 9999 of the two input arrays, and the weight matrix and the bias are read whole, then the body's
    value at entry j of the block is the dense layer of the rectified sum at the entry i that j is carried to. -/
theorem point_value (A0 A1 : FVec Ideal S2000000x16 .f32) (W : FVec Ideal S6x16 .f32) (B : FVec Ideal S6 .f32)
    (x0 x1 : Vec Ideal S10000x16 .f32) (w : Vec Ideal S6x16 .f32) (b : Vec Ideal S6 .f32)
    (n : Nat) (j : S10000x6.Idx) (i : S2000000x6.Idx)
    (hr : (i 0).val = n * 10000 + (j 0).val) (hc : (i 1).val = (j 1).val)
    (hx0 : ∀ (y : S10000x16.Idx) (k : S2000000x16.Idx),
      (k 0).val = n * 10000 + (y 0).val → (k 1).val = (y 1).val → x0 y = A0 k)
    (hx1 : ∀ (y : S10000x16.Idx) (k : S2000000x16.Idx),
      (k 0).val = n * 10000 + (y 0).val → (k 1).val = (y 1).val → x1 y = A1 k)
    (hw : w = W) (hb : b = B) :
    k1_pay1 x0 x1 w b j = Cert.Spec.dense (Cert.Spec.relu (Cert.Spec.plus A0 A1)) W B i := by
  obtain ⟨p, q, rfl⟩ : ∃ (p : Fin 10000) (q : Fin 6), j = ix2 p q := ⟨j 0, j 1, eq_ix2 j⟩
  obtain ⟨r, s, rfl⟩ : ∃ (r : Fin 2000000) (s : Fin 6), i = ix2 r s := ⟨i 0, i 1, eq_ix2 i⟩
  have hsq : s = q := Fin.ext hc
  subst hsq
  subst hw
  subst hb
  rw [body_dense, Cert.Spec.dense_apply]
  refine congrArg₂ (· + ·) (Finset.sum_congr rfl fun κ _ => ?_) rfl
  rw [hx0 (ix2 p κ) (ix2 r κ) hr rfl, hx1 (ix2 p κ) (ix2 r κ) hr rfl]
  rfl

/-- Point t's row-blocked windows (the two inputs and the result) are at block row t, block column 0; the weight matrix
    and the bias vector are fetched whole, at block 0 on every axis. -/
theorem block_of_point : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point t writes back is block t of the dense layer of the rectified sum. -/
theorem written_block (c : Dev nD) (t : Fin cfg1.N) :
    (dat1 (F := Ideal) V c).flushed 4 t
      = ((cfg1.win 4).blk t).view.read (Elt Ideal)
          (Cert.Spec.dense (Cert.Spec.relu (Cert.Spec.plus (V c main_v10) (V c main_v34))) (V c main_v2) (V c main_v3)) := by
  show (cfg1.win 4).cut (grid1.coords t) ((dat1 (F := Ideal) V c).after 4 t) = _
  rw [after1_4]
  unfold out1_4
  rw [View.canon_unit_zero origin2]
  simp only [View.ld_unit_zero (S := S10000x16) origin2, View.ld_unit_zero (S := S6x16) origin2,
    View.ld_unit_zero (S := S6) origin1]
  obtain ⟨e00, e01, e10, e11, e20, e21, e30, e40, e41⟩ := block_of_point t
  funext j
  refine point_value (V c main_v10) (V c main_v34) (V c main_v2) (V c main_v3)
    (iblk1 V c 0 t) (iblk1 V c 1 t) (iblk1 V c 2 t) (iblk1 V c 3 t) t.val j (((cfg1.win 4).blk t).view.emb j)
    ?_ ?_ ?_ ?_ ?_ ?_
  · show win1_4.index t (0 : Fin 2) * 10000 + 1 * (j 0).val = t.val * 10000 + (j 0).val
    omega
  · show win1_4.index t (1 : Fin 2) * 6 + 1 * (j 1).val = (j 1).val
    omega
  · intro y k h0 h1
    show V c main_v10 (((cfg1.win 0).blk t).view.emb y) = V c main_v10 k
    refine congrArg (V c main_v10) ?_
    funext a; apply Fin.ext
    match a with
    | ⟨0, _⟩ => show win1_0.index t (0 : Fin 2) * 10000 + 1 * (y 0).val = (k 0).val; omega
    | ⟨1, _⟩ => show win1_0.index t (1 : Fin 2) * 16 + 1 * (y 1).val = (k 1).val; omega
  · intro y k h0 h1
    show V c main_v34 (((cfg1.win 1).blk t).view.emb y) = V c main_v34 k
    refine congrArg (V c main_v34) ?_
    funext a; apply Fin.ext
    match a with
    | ⟨0, _⟩ => show win1_1.index t (0 : Fin 2) * 10000 + 1 * (y 0).val = (k 0).val; omega
    | ⟨1, _⟩ => show win1_1.index t (1 : Fin 2) * 16 + 1 * (y 1).val = (k 1).val; omega
  · funext y
    show V c main_v2 (((cfg1.win 2).blk t).view.emb y) = V c main_v2 y
    refine congrArg (V c main_v2) ?_
    funext a; apply Fin.ext
    match a with
    | ⟨0, _⟩ => show win1_2.index t (0 : Fin 2) * 6 + 1 * (y 0).val = (y 0).val; omega
    | ⟨1, _⟩ => show win1_2.index t (1 : Fin 2) * 16 + 1 * (y 1).val = (y 1).val; omega
  · funext y
    show V c main_v3 (((cfg1.win 3).blk t).view.emb y) = V c main_v3 y
    refine congrArg (V c main_v3) ?_
    funext a; apply Fin.ext
    match a with
    | ⟨0, _⟩ => show win1_3.index t (0 : Fin 1) * 6 + 1 * (y 0).val = (y 0).val; omega

/-- An entry of the result array is in point t's block iff each coordinate is in the block's range on its axis. -/
theorem mem_block (t : Fin cfg1.N) (i : S2000000x6.Idx) :
    i ∈ ((cfg1.win 4).blk t).view.set
      ↔ ∀ a : Fin 2, win1_4.index t a * S10000x6.size a ≤ (i a).val
          ∧ (i a).val < win1_4.index t a * S10000x6.size a + S10000x6.size a := by
  show i ∈ ((View.whole main_v35).slice (win1_4.rect t)).set ↔ _
  rw [View.set_slice_whole, Rect.mem_set_unit]
  exact Iff.rfl

/-- Every entry of the result array is written back by some point: row r by point r / 10000. -/
theorem every_row_written (i : S2000000x6.Idx) :
    ∃ t : Fin cfg1.N, (cfg1.win 4).flush t = true ∧ i ∈ ((cfg1.win 4).blk t).view.set := by
  have hr : (i 0).val < 2000000 := idx2_lt0 i
  have hc : (i 1).val < 6 := idx2_lt1 i
  obtain ⟨t, ht⟩ : ∃ t : Fin cfg1.N, t.val = (i 0).val / 10000 :=
    ⟨⟨(i 0).val / 10000, lt_of_lt_of_eq (by omega : (i 0).val / 10000 < 200) N_1.symm⟩, rfl⟩
  obtain ⟨-, -, -, -, -, -, -, e40, e41⟩ := block_of_point t
  refine ⟨t, flush1_4 t, ?_⟩
  rw [mem_block]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 6 ≤ (i 1).val ∧ (i 1).val < win1_4.index t (1 : Fin 2) * 6 + 6
    omega

end R1

/-- What region 1 leaves in its result array: the dense layer of the rectified sum of the first two arrays it reads,
    with the weight matrix and the bias vector it reads, all as it finds them. -/
theorem arr1 (c : Dev nD) :
    (dat1 (F := Ideal) V c).arrAt 4 cfg1.N
      = Cert.Spec.dense (Cert.Spec.relu (Cert.Spec.plus (V c main_v10) (V c main_v34))) (V c main_v2) (V c main_v3) := by
  exact (dat1 (F := Ideal) V c).arrAt_eq_of_cover 4 _ (fun t _ => R1.written_block V c t) R1.every_row_written

end Cert.KernelIdeal.RegionValue

end
-- ==== Proof.Region2.lean ====
/-
  The third kernel region: the array it leaves is the entrywise sum of the two arrays it finds.

  The grid has 200 points; point t fetches rows 10000 t … 10000 t + 9999 of the two 3-column arrays and writes back the
  same rows of the result, each entry the sum of the two entries at its place.  The blocks tile the result array.
-/
import proofs.«110151_j90297392431231_1_alg».proof.Proof.Gen.KernelIdeal.Frame
import proofs.«110151_j90297392431231_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace R2

/-- A block that starts at the origin of its buffer: the offset, as a constant function. -/
theorem origin2 : (![0, 0] : Fin 2 → Nat) = fun _ => 0 := funext fun a => by fin_cases a <;> rfl

/-- The body's value at an entry of the block: the sum of the two loaded blocks' entries there. -/
theorem body_sum (x0 x1 : Vec Ideal S10000x3 .f32) (j : S10000x3.Idx) :
    k2_pay1 x0 x1 j = x0 j + x1 j := by
  unfold k2_pay1
  simp only [shapeCast_self]
  rfl

/-- Two arrays read at places that are both the place i: their sum there is the entrywise sum at i. -/
theorem sum_at (A B : FVec Ideal S2000000x3 .f32) (i0 i1 i : S2000000x3.Idx) (h0 : i0 = i) (h1 : i1 = i) :
    A i0 + B i1 = Cert.Spec.plus A B i := by
  subst h0; subst h1; rfl

/-- Point t's three blocks are block row t, block column 0, of their arrays. -/
theorem block_of_point : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the entrywise sum of the two arrays. -/
theorem written_block (c : Dev nD) (t : Fin cfg2.N) :
    (dat2 (F := Ideal) V c).flushed 2 t
      = ((cfg2.win 2).blk t).view.read (Elt Ideal) (Cert.Spec.plus (V c main_v36) (V c main_v60)) := by
  show (cfg2.win 2).cut (grid2.coords t) ((dat2 (F := Ideal) V c).after 2 t) = _
  rw [after2_2]
  unfold out2_2
  rw [View.canon_unit_zero origin2]
  simp only [View.ld_unit_zero (S := S10000x3) origin2]
  obtain ⟨e0, e1, e2, e3, e4, e5⟩ := block_of_point t
  funext j
  refine (body_sum _ _ _).trans ?_
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 3 + 1 * (j 1).val = win2_2.index t (1 : Fin 2) * 3 + 1 * (j 1).val; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 3 + 1 * (j 1).val = win2_2.index t (1 : Fin 2) * 3 + 1 * (j 1).val; omega
  exact sum_at (V c main_v36) (V c main_v60) (((cfg2.win 0).blk t).view.emb j) (((cfg2.win 1).blk t).view.emb j)
    (((cfg2.win 2).blk t).view.emb j) h0 h1

/-- An entry of the result array is in point t's block iff each coordinate is in the block's range on its axis. -/
theorem mem_block (t : Fin cfg2.N) (i : S2000000x3.Idx) :
    i ∈ ((cfg2.win 2).blk t).view.set
      ↔ ∀ a : Fin 2, win2_2.index t a * S10000x3.size a ≤ (i a).val
          ∧ (i a).val < win2_2.index t a * S10000x3.size a + S10000x3.size a := by
  show i ∈ ((View.whole main_v61).slice (win2_2.rect t)).set ↔ _
  rw [View.set_slice_whole, Rect.mem_set_unit]
  exact Iff.rfl

/-- Every entry of the result array is written back by some point: row r by point r / 10000. -/
theorem every_row_written (i : S2000000x3.Idx) :
    ∃ t : Fin cfg2.N, (cfg2.win 2).flush t = true ∧ i ∈ ((cfg2.win 2).blk t).view.set := by
  have hr : (i 0).val < 2000000 := idx2_lt0 i
  have hc : (i 1).val < 3 := idx2_lt1 i
  obtain ⟨t, ht⟩ : ∃ t : Fin cfg2.N, t.val = (i 0).val / 10000 :=
    ⟨⟨(i 0).val / 10000, lt_of_lt_of_eq (by omega : (i 0).val / 10000 < 200) N_2.symm⟩, rfl⟩
  obtain ⟨-, -, -, -, e4, e5⟩ := block_of_point t
  refine ⟨t, flush2_2 t, ?_⟩
  rw [mem_block]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 3 ≤ (i 1).val ∧ (i 1).val < win2_2.index t (1 : Fin 2) * 3 + 3
    omega

end R2

/-- What region 2 leaves in its result array: the entrywise sum of the two arrays it reads, as it finds them. -/
theorem arr2 (c : Dev nD) :
    (dat2 (F := Ideal) V c).arrAt 2 cfg2.N = Cert.Spec.plus (V c main_v36) (V c main_v60) := by
  exact (dat2 (F := Ideal) V c).arrAt_eq_of_cover 2 _ (fun t _ => R2.written_block V c t) R2.every_row_written

end Cert.KernelIdeal.RegionValue

end
-- ==== Proof.LibScatterSplit.lean ====
/-
  An accumulating row scatter over a concatenated list of updates is two accumulating row scatters, one after the
  other.

  On the extended reals an accumulating scatter adds to each element of the operand the sum of the update elements
  that land on it.  When the update list is the first list followed by the second (and the index list likewise), the
  set of update positions landing on an element splits into those from the first half and those from the second, so
  the sum splits, and addition on the extended reals is associative.
-/
import Idealize.ShloMosaic.PureOps.Ideal
import Idealize.ShloMosaic.Lib.ValueIdx

noncomputable section

open scoped BigOperators

namespace Cert.LibScatterSplit

open Idealize.ShloMosaic Idealize.ShloMosaic.ValueIdx

/-- The dimension numbers of a row scatter: update row e, all C columns, goes to the operand row that entry (e, 0) of
    the index column names. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The landing position as a function of the signed position (window start plus window coordinate) on each axis:
    that position when it lies inside the operand on every axis, nothing otherwise. -/
private def landing {s : Shape} (f : Fin s.rank → Int) : Option s.Idx :=
  if h : ∀ a, 0 ≤ f a ∧ f a < s.size a then some fun a => ⟨(f a).toNat, by have := h a; omega⟩ else none

/-- Where an update element lands is the landing of its signed position. -/
private theorem resultIdx?_eq_landing {s si u : Shape} {w : Nat} (d : ScatterDims s si u) (j : u.Idx) (idx : IVec si w) :
    d.resultIdx? j idx = landing fun a => d.start j idx a + d.window j a := rfl

/-- On the row axis the window of a row scatter starts at the index word of the update's row. -/
private theorem start_row {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  congr 2
  funext b
  refine Fin.ext ?_
  match b with
  | ⟨0, _⟩ => rfl
  | ⟨1, _⟩ => rfl

/-- On the column axis the window of a row scatter starts at zero. -/
private theorem start_col {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  have h : ¬ (1 : Fin 2) ∈ (rowScatterDims N E C wf).scatterDimsToOperandDims := by
    show ¬ (1 : Fin 2) ∈ ([0] : List (Fin 2)); decide
  rw [dif_neg h]

/-- The row axis is inserted: the window coordinate there is zero. -/
private theorem window_row {N E C : Nat}
    (wf : ScatterDims.WF ⟨2, ![N, C]⟩ ⟨2, ![E, 1]⟩ ⟨2, ![E, C]⟩ [1] [0] [0] 1)
    (j : (⟨2, ![E, C]⟩ : Shape).Idx) :
    (rowScatterDims N E C wf).window j 0 = 0 := by
  unfold ScatterDims.window
  have h : ¬ (0 : Fin 2) ∈ (rowScatterDims N E C wf).sKept := by
    show ¬ (0 : Fin 2) ∈ (List.finRange 2).filter (· ∉ ([0] : List (Fin 2))); decide
  rw [dif_neg h]

/-- On the column axis the window coordinate is the update's column. -/
private theorem window_col {N E C : Nat}
    (wf : ScatterDims.WF ⟨2, ![N, C]⟩ ⟨2, ![E, 1]⟩ ⟨2, ![E, C]⟩ [1] [0] [0] 1)
    (j : (⟨2, ![E, C]⟩ : Shape).Idx) :
    (rowScatterDims N E C wf).window j 1 = (j 1).val := by
  unfold ScatterDims.window
  have h : (1 : Fin 2) ∈ (rowScatterDims N E C wf).sKept := by
    show (1 : Fin 2) ∈ (List.finRange 2).filter (· ∉ ([0] : List (Fin 2))); decide
  rw [dif_pos h]
  rfl

/-- Where an update element lands depends only on the index word of its row and on its column. -/
theorem rowScatter_resultIdx?_congr {N E E' C w : Nat}
    (wf : ScatterDims.WF ⟨2, ![N, C]⟩ ⟨2, ![E, 1]⟩ ⟨2, ![E, C]⟩ [1] [0] [0] 1)
    (wf' : ScatterDims.WF ⟨2, ![N, C]⟩ ⟨2, ![E', 1]⟩ ⟨2, ![E', C]⟩ [1] [0] [0] 1)
    (idx : IVec ⟨2, ![E, 1]⟩ w) (idx' : IVec ⟨2, ![E', 1]⟩ w)
    (j : (⟨2, ![E, C]⟩ : Shape).Idx) (j' : (⟨2, ![E', C]⟩ : Shape).Idx)
    (hi : idx (ix2 (j 0) (0 : Fin 1)) = idx' (ix2 (j' 0) (0 : Fin 1))) (hc : (j 1).val = (j' 1).val) :
    (rowScatterDims N E C wf).resultIdx? j idx = (rowScatterDims N E' C wf').resultIdx? j' idx' := by
  rw [resultIdx?_eq_landing, resultIdx?_eq_landing]
  congr 1
  funext a
  match a with
  | ⟨0, _⟩ =>
    show (rowScatterDims N E C wf).start j idx 0 + ((rowScatterDims N E C wf).window j 0 : Int)
      = (rowScatterDims N E' C wf').start j' idx' 0 + ((rowScatterDims N E' C wf').window j' 0 : Int)
    rw [start_row, start_row, window_row, window_row, hi]
  | ⟨1, _⟩ =>
    show (rowScatterDims N E C wf).start j idx 1 + ((rowScatterDims N E C wf).window j 1 : Int)
      = (rowScatterDims N E' C wf').start j' idx' 1 + ((rowScatterDims N E' C wf').window j' 1 : Int)
    rw [start_col, start_col, window_col, window_col, hc]

/-- The sum over the update positions splits along any partition of them into two embedded copies. -/
theorem hostScatterAdd_split {s si si' u u' : Shape} {w : Nat} (d : ScatterDims s si u) (d' : ScatterDims s si' u')
    (x : s.Idx → EReal) (I : IVec si w) (I1 I2 : IVec si' w) (U : u.Idx → EReal) (U1 U2 : u'.Idx → EReal)
    (inl inr : u'.Idx → u.Idx) (hl : Function.Injective inl) (hr : Function.Injective inr)
    (hlr : ∀ a b, inl a ≠ inr b) (hcov : ∀ j, (∃ a, inl a = j) ∨ ∃ b, inr b = j)
    (h1 : ∀ a, d.resultIdx? (inl a) I = d'.resultIdx? a I1) (h2 : ∀ b, d.resultIdx? (inr b) I = d'.resultIdx? b I2)
    (hu1 : ∀ a, U (inl a) = U1 a) (hu2 : ∀ b, U (inr b) = U2 b) :
    Ideal.hostScatterAdd d x I U = Ideal.hostScatterAdd d' (Ideal.hostScatterAdd d' x I1 U1) I2 U2 := by
  funext i
  unfold Ideal.hostScatterAdd
  rw [add_assoc]
  congr 1
  -- the update positions are the disjoint union of the two embedded copies
  have hbij : Function.Bijective (Sum.elim inl inr) := by
    constructor
    · rintro (a | a) (b | b) hab
      · exact congrArg Sum.inl (hl hab)
      · exact absurd hab (hlr a b)
      · exact absurd hab.symm (hlr b a)
      · exact congrArg Sum.inr (hr hab)
    · intro j
      rcases hcov j with ⟨a, ha⟩ | ⟨b, hb⟩
      · exact ⟨Sum.inl a, ha⟩
      · exact ⟨Sum.inr b, hb⟩
  rw [Finset.sum_filter, Finset.sum_filter, Finset.sum_filter,
    ← Equiv.sum_comp (Equiv.ofBijective _ hbij), Fintype.sum_sum_type]
  congr 1
  · refine Finset.sum_congr rfl fun a _ => ?_
    show (if d.resultIdx? (inl a) I = some i then U (inl a) else 0) = _
    rw [h1 a, hu1 a]
  · refine Finset.sum_congr rfl fun b _ => ?_
    show (if d.resultIdx? (inr b) I = some i then U (inr b) else 0) = _
    rw [h2 b, hu2 b]

/-- A row scatter of E + E updates whose index column and update rows are a first list of E followed by a second
    list of E is the row scatter of the first list followed by the row scatter of the second. -/
theorem rowScatterAdd_concat {N E E2 C w : Nat} (hE : E2 = E + E)
    (wf2 : ScatterDims.WF ⟨2, ![N, C]⟩ ⟨2, ![E2, 1]⟩ ⟨2, ![E2, C]⟩ [1] [0] [0] 1)
    (wf : ScatterDims.WF ⟨2, ![N, C]⟩ ⟨2, ![E, 1]⟩ ⟨2, ![E, C]⟩ [1] [0] [0] 1)
    (x : (⟨2, ![N, C]⟩ : Shape).Idx → EReal) (I : IVec ⟨2, ![E2, 1]⟩ w) (I1 I2 : IVec ⟨2, ![E, 1]⟩ w)
    (U : (⟨2, ![E2, C]⟩ : Shape).Idx → EReal) (U1 U2 : (⟨2, ![E, C]⟩ : Shape).Idx → EReal)
    (hI1 : ∀ e : Fin E, I (ix2 (⟨e.val, by omega⟩ : Fin E2) (0 : Fin 1)) = I1 (ix2 e (0 : Fin 1)))
    (hI2 : ∀ e : Fin E, I (ix2 (⟨E + e.val, by omega⟩ : Fin E2) (0 : Fin 1)) = I2 (ix2 e (0 : Fin 1)))
    (hU1 : ∀ (e : Fin E) (c : Fin C), U (ix2 (⟨e.val, by omega⟩ : Fin E2) c) = U1 (ix2 e c))
    (hU2 : ∀ (e : Fin E) (c : Fin C), U (ix2 (⟨E + e.val, by omega⟩ : Fin E2) c) = U2 (ix2 e c)) :
    Ideal.hostScatterAdd (rowScatterDims N E2 C wf2) x I U
      = Ideal.hostScatterAdd (rowScatterDims N E C wf) (Ideal.hostScatterAdd (rowScatterDims N E C wf) x I1 U1) I2 U2 := by
  subst hE
  refine hostScatterAdd_split (rowScatterDims N (E + E) C wf2) (rowScatterDims N E C wf) x I I1 I2 U U1 U2
    (fun a => ix2 (n0 := E + E) (n1 := C) ⟨(a 0).val, by have := idx2_lt0 a; omega⟩ (a 1))
    (fun b => ix2 (n0 := E + E) (n1 := C) ⟨E + (b 0).val, by have := idx2_lt0 b; omega⟩ (b 1))
    ?_ ?_ ?_ ?_ ?_ ?_ ?_ ?_
  · -- a row of the first half is determined by its row number and column
    intro a a' h
    have h0 : (a 0).val = (a' 0).val := by
      have := congrArg Fin.val (congrFun h 0); exact this
    have h1 : a 1 = a' 1 := congrFun h 1
    funext c
    match c with
    | ⟨0, _⟩ => exact Fin.ext h0
    | ⟨1, _⟩ => exact h1
  · -- likewise for the second half: adding E to the row number loses nothing
    intro b b' h
    have h0 : (b 0).val = (b' 0).val := by
      have : E + (b 0).val = E + (b' 0).val := by
        have := congrArg Fin.val (congrFun h 0); exact this
      omega
    have h1 : b 1 = b' 1 := congrFun h 1
    funext c
    match c with
    | ⟨0, _⟩ => exact Fin.ext h0
    | ⟨1, _⟩ => exact h1
  · -- rows below E and rows from E on are different rows
    intro a b h
    have h0 : (a 0).val = E + (b 0).val := by
      have := congrArg Fin.val (congrFun h 0); exact this
    have := idx2_lt0 a
    omega
  · -- every row of the long list is below E or is E plus a row below E
    intro j
    have hj := idx2_lt0 j
    by_cases hlt : (j 0).val < E
    · refine Or.inl ⟨ix2 (n0 := E) (n1 := C) ⟨(j 0).val, hlt⟩ (j 1), ?_⟩
      funext c
      match c with
      | ⟨0, _⟩ => rfl
      | ⟨1, _⟩ => rfl
    · refine Or.inr ⟨ix2 (n0 := E) (n1 := C) ⟨(j 0).val - E, by omega⟩ (j 1), ?_⟩
      funext c
      match c with
      | ⟨0, _⟩ => exact Fin.ext (show E + ((j 0).val - E) = (j 0).val by omega)
      | ⟨1, _⟩ => rfl
  · intro a
    exact rowScatter_resultIdx?_congr wf2 wf I I1 _ a (hI1 (a 0)) rfl
  · intro b
    exact rowScatter_resultIdx?_congr wf2 wf I I2 _ b (hI2 (b 0)) rfl
  · intro a
    exact (hU1 (a 0) (a 1)).trans (congrArg U1 (eq_ix2 a).symm)
  · intro b
    exact (hU2 (b 0) (b 1)).trans (congrArg U2 (eq_ix2 b).symm)

end Cert.LibScatterSplit

end
-- ==== Proof.ScatterBridge.lean ====
/-
  The neighbour aggregation, in the kernel's program and in the reference's.

  Both programs read the edge list (6000000 pairs of vertex numbers), wrap a negative vertex number by adding the
  number of vertices, gather the rows of a per-vertex array h at the second vertex of every edge and at the first, and
  add, into an array of zeros, the row gathered at the second vertex to the row of the first vertex and the row gathered
  at the first vertex to the row of the second.  The reference does this as two accumulating scatters, one after the
  other; the kernel's program lays the two index lists end to end, the two gathered arrays one over the other, and does
  ONE accumulating scatter of 12000000 rows.  On the extended reals both are: row v gets the sum of the gathered rows
  that land on it.
-/
import proofs.«110151_j90297392431231_1_alg».proof.Proof.Gen.KernelIdeal
import proofs.«110151_j90297392431231_1_alg».proof.Proof.Gen.ReferenceIdeal
import proofs.«110151_j90297392431231_1_alg».proof.Proof.LibScatterSplit
import Idealize.ShloMosaic.Lib.Pipeline.Value
import Idealize.ShloMosaic.Lib.ValueIdx

noncomputable section

open scoped BigOperators

namespace Cert.KernelIdeal.Agg

open Cert.KernelIdeal Cert.KernelIdeal.Gen Idealize.ShloMosaic Idealize.ShloMosaic.TcCoe

/-- The first vertex of every edge. -/
def src (e : IVec S6000000x2 32) : IVec S6000000 32 :=
  shapeCast S6000000 (extractStridedSlice S6000000x1 ![0, 0] e slices_S6000000x2_S6000000x1_0_0) shapeCasts_S6000000x1_S6000000
/-- The second vertex of every edge. -/
def dst (e : IVec S6000000x2 32) : IVec S6000000 32 :=
  shapeCast S6000000 (extractStridedSlice S6000000x1 ![0, 1] e slices_S6000000x2_S6000000x1_0_1) shapeCasts_S6000000x1_S6000000
/-- A list of 6000000 vertex numbers, negative ones wrapped, as an index column. -/
def col6 (s : IVec S6000000 32) : IVec S6000000x1 32 :=
  broadcastInDim S6000000x1 ![0] bcast_S6000000_S6000000x1_0
    (select (cmpi .slt s (broadcastInDim S6000000 ![] bcast_S_S6000000 (constantI S_ 32 0#32)))
      (addi s (broadcastInDim S6000000 ![] bcast_S_S6000000 (constantI S_ 32 2000000#32))) s)
/-- A list of 12000000 vertex numbers, negative ones wrapped, as an index column. -/
def col12 (s : IVec S12000000 32) : IVec S12000000x1 32 :=
  broadcastInDim S12000000x1 ![0] bcast_S12000000_S12000000x1_0
    (select (cmpi .slt s (broadcastInDim S12000000 ![] bcast_S_S12000000 (constantI S_ 32 0#32)))
      (addi s (broadcastInDim S12000000 ![] bcast_S_S12000000 (constantI S_ 32 2000000#32))) s)
/-- The two vertex lists end to end. -/
def both (e : IVec S6000000x2 32) : IVec S12000000 32 :=
  concatenate S12000000 0 [⟨S6000000, src e⟩, ⟨S6000000, dst e⟩] concatenates_S6000000_S6000000_S12000000_d0

/-- The neighbour sums over 16 columns, as the kernel's program computes them: one scatter of 12000000 rows. -/
def agg16 (h : FVec Ideal S2000000x16 .f32) (e : IVec S6000000x2 32) : FVec Ideal S2000000x16 .f32 :=
  Host.scatterAdd scatter_S2000000x16_S12000000x1_S12000000x16_1_0_0_1
    (broadcastInDim S2000000x16 ![] bcast_S_S2000000x16 (constant S_ .f32 0x00000000#32))
    (col12 (both e))
    (concatenate S12000000x16 0
      [⟨S6000000x16, Host.gather gather_S2000000x16_S6000000x1_S6000000x16_1_0_n_n_0_1_116 h (col6 (dst e))⟩,
       ⟨S6000000x16, Host.gather gather_S2000000x16_S6000000x1_S6000000x16_1_0_n_n_0_1_116 h (col6 (src e))⟩]
      concatenates_S6000000x16_S6000000x16_S12000000x16_d0)

/-- The neighbour sums over 3 columns, as the kernel's program computes them: one scatter of 12000000 rows. -/
def agg3 (h : FVec Ideal S2000000x3 .f32) (e : IVec S6000000x2 32) : FVec Ideal S2000000x3 .f32 :=
  Host.scatterAdd scatter_S2000000x3_S12000000x1_S12000000x3_1_0_0_1
    (broadcastInDim S2000000x3 ![] bcast_S_S2000000x3 (constant S_ .f32 0x00000000#32))
    (col12 (both e))
    (concatenate S12000000x3 0
      [⟨S6000000x3, Host.gather gather_S2000000x3_S6000000x1_S6000000x3_1_0_n_n_0_1_13 h (col6 (dst e))⟩,
       ⟨S6000000x3, Host.gather gather_S2000000x3_S6000000x1_S6000000x3_1_0_n_n_0_1_13 h (col6 (src e))⟩]
      concatenates_S6000000x3_S6000000x3_S12000000x3_d0)

end Cert.KernelIdeal.Agg

namespace Cert.ReferenceIdeal.Agg

open Cert.ReferenceIdeal Cert.ReferenceIdeal.Gen Idealize.ShloMosaic Idealize.ShloMosaic.TcCoe

/-- The first vertex of every edge. -/
def src (e : IVec S6000000x2 32) : IVec S6000000 32 :=
  shapeCast S6000000 (extractStridedSlice S6000000x1 ![0, 0] e slices_S6000000x2_S6000000x1_0_0) shapeCasts_S6000000x1_S6000000
/-- The second vertex of every edge. -/
def dst (e : IVec S6000000x2 32) : IVec S6000000 32 :=
  shapeCast S6000000 (extractStridedSlice S6000000x1 ![0, 1] e slices_S6000000x2_S6000000x1_0_1) shapeCasts_S6000000x1_S6000000
/-- A list of 6000000 vertex numbers, negative ones wrapped, as an index column. -/
def col6 (s : IVec S6000000 32) : IVec S6000000x1 32 :=
  broadcastInDim S6000000x1 ![0] bcast_S6000000_S6000000x1_0
    (select (cmpi .slt s (broadcastInDim S6000000 ![] bcast_S_S6000000 (constantI S_ 32 0#32)))
      (addi s (broadcastInDim S6000000 ![] bcast_S_S6000000 (constantI S_ 32 2000000#32))) s)

/-- The neighbour sums over 16 columns, as the reference computes them: two scatters of 6000000 rows. -/
def agg16 (h : FVec Ideal S2000000x16 .f32) (e : IVec S6000000x2 32) : FVec Ideal S2000000x16 .f32 :=
  Host.scatterAdd scatter_S2000000x16_S6000000x1_S6000000x16_1_0_0_1
    (Host.scatterAdd scatter_S2000000x16_S6000000x1_S6000000x16_1_0_0_1
      (broadcastInDim S2000000x16 ![] bcast_S_S2000000x16 (constant S_ .f32 0x00000000#32))
      (col6 (src e))
      (Host.gather gather_S2000000x16_S6000000x1_S6000000x16_1_0_n_n_0_1_116 h (col6 (dst e))))
    (col6 (dst e))
    (Host.gather gather_S2000000x16_S6000000x1_S6000000x16_1_0_n_n_0_1_116 h (col6 (src e)))

/-- The neighbour sums over 3 columns, as the reference computes them: two scatters of 6000000 rows. -/
def agg3 (h : FVec Ideal S2000000x3 .f32) (e : IVec S6000000x2 32) : FVec Ideal S2000000x3 .f32 :=
  Host.scatterAdd scatter_S2000000x3_S6000000x1_S6000000x3_1_0_0_1
    (Host.scatterAdd scatter_S2000000x3_S6000000x1_S6000000x3_1_0_0_1
      (broadcastInDim S2000000x3 ![] bcast_S_S2000000x3 (constant S_ .f32 0x00000000#32))
      (col6 (src e))
      (Host.gather gather_S2000000x3_S6000000x1_S6000000x3_1_0_n_n_0_1_13 h (col6 (dst e))))
    (col6 (dst e))
    (Host.gather gather_S2000000x3_S6000000x1_S6000000x3_1_0_n_n_0_1_13 h (col6 (src e)))

end Cert.ReferenceIdeal.Agg

namespace Cert.Bridge

open Idealize.ShloMosaic Idealize.ShloMosaic.ValueIdx

/-- A vertex number, a negative one wrapped by adding the number of vertices. -/
private def wrapWord (v : BitVec 32) : BitVec 32 :=
  Scalar.select (IntOp.cmpi .slt v 0#32) (IntOp.addi v 2000000#32) v

/-- A list laid out as a column, read at row r: the list's entry r. -/
private theorem bcast_col_apply {α : Type} {n : Nat}
    (hb : (⟨1, ![n]⟩ : Shape).BroadcastsInDim ⟨2, ![n, 1]⟩ (![0] : Fin 1 → Fin 2))
    (x : (⟨1, ![n]⟩ : Shape).Idx → α) (r : Fin n) :
    broadcastInDim ⟨2, ![n, 1]⟩ ![0] hb x (ix2 r (0 : Fin 1)) = x (ix1 r) := by
  refine broadcastInDim_apply _ hb x _ (ix1 r) fun a => ?_
  match a with
  | ⟨0, _⟩ =>
    show r.val = if n = 1 then 0 else r.val
    split
    · have := r.isLt; omega
    · rfl

/-- Two lists end to end, read in the first half. -/
private theorem concat1_left {α : Type} {n n2 : Nat} (x₁ x₂ : (⟨1, ![n]⟩ : Shape).Idx → α)
    (h : Shape.Concatenates [(⟨1, ![n]⟩ : Shape), ⟨1, ![n]⟩] ⟨1, ![n2]⟩ 0) (r : Fin n) (hr : r.val < n2) :
    concatenate ⟨1, ![n2]⟩ 0 [⟨⟨1, ![n]⟩, x₁⟩, ⟨⟨1, ![n]⟩, x₂⟩] h (ix1 ⟨r.val, hr⟩) = x₁ (ix1 r) :=
  concatenate_pair_apply_left 0 x₁ x₂ h _ rfl (ix1 r) fun b => match b with | ⟨0, _⟩ => rfl

/-- Two lists end to end, read in the second half. -/
private theorem concat1_right {α : Type} {n n2 : Nat} (x₁ x₂ : (⟨1, ![n]⟩ : Shape).Idx → α)
    (h : Shape.Concatenates [(⟨1, ![n]⟩ : Shape), ⟨1, ![n]⟩] ⟨1, ![n2]⟩ 0) (r : Fin n) (hr : n + r.val < n2) :
    concatenate ⟨1, ![n2]⟩ 0 [⟨⟨1, ![n]⟩, x₁⟩, ⟨⟨1, ![n]⟩, x₂⟩] h (ix1 ⟨n + r.val, hr⟩) = x₂ (ix1 r) :=
  concatenate_pair_apply_right 0 x₁ x₂ h _ rfl rfl (ix1 r)
    (fun b => match b with | ⟨0, _⟩ => fun hb => absurd rfl hb)
    (show r.val + n = n + r.val from Nat.add_comm _ _)

/-- Two arrays one over the other, read at a row of the upper one. -/
private theorem concat2_left {α : Type} {n n2 C : Nat} (x₁ x₂ : (⟨2, ![n, C]⟩ : Shape).Idx → α)
    (h : Shape.Concatenates [(⟨2, ![n, C]⟩ : Shape), ⟨2, ![n, C]⟩] ⟨2, ![n2, C]⟩ 0) (r : Fin n) (hr : r.val < n2) (c : Fin C) :
    concatenate ⟨2, ![n2, C]⟩ 0 [⟨⟨2, ![n, C]⟩, x₁⟩, ⟨⟨2, ![n, C]⟩, x₂⟩] h (ix2 ⟨r.val, hr⟩ c) = x₁ (ix2 r c) :=
  concatenate_pair_apply_left 0 x₁ x₂ h _ rfl (ix2 r c) fun b => match b with | ⟨0, _⟩ => rfl | ⟨1, _⟩ => rfl

/-- Two arrays one over the other, read at a row of the lower one. -/
private theorem concat2_right {α : Type} {n n2 C : Nat} (x₁ x₂ : (⟨2, ![n, C]⟩ : Shape).Idx → α)
    (h : Shape.Concatenates [(⟨2, ![n, C]⟩ : Shape), ⟨2, ![n, C]⟩] ⟨2, ![n2, C]⟩ 0) (r : Fin n) (hr : n + r.val < n2) (c : Fin C) :
    concatenate ⟨2, ![n2, C]⟩ 0 [⟨⟨2, ![n, C]⟩, x₁⟩, ⟨⟨2, ![n, C]⟩, x₂⟩] h (ix2 ⟨n + r.val, hr⟩ c) = x₂ (ix2 r c) :=
  concatenate_pair_apply_right 0 x₁ x₂ h _ rfl rfl (ix2 r c)
    (fun b => match b with | ⟨0, _⟩ => fun hb => absurd rfl hb | ⟨1, _⟩ => fun _ => rfl)
    (show r.val + n = n + r.val from Nat.add_comm _ _)

/-- The kernel's index column of 6000000 rows at row r: the wrapped entry r of the list. -/
private theorem colK6_apply (s : IVec ⟨1, ![6000000]⟩ 32) (r : Fin 6000000) :
    Cert.KernelIdeal.Agg.col6 s (ix2 r (0 : Fin 1)) = wrapWord (s (ix1 r)) :=
  (bcast_col_apply _ _ r).trans rfl

/-- The kernel's index column of 12000000 rows at row r: the wrapped entry r of the list. -/
private theorem colK12_apply (s : IVec ⟨1, ![12000000]⟩ 32) (r : Fin 12000000) :
    Cert.KernelIdeal.Agg.col12 s (ix2 r (0 : Fin 1)) = wrapWord (s (ix1 r)) :=
  (bcast_col_apply _ _ r).trans rfl

/-- The reference's index column at row r: the wrapped entry r of the list. -/
private theorem colR6_apply (s : IVec ⟨1, ![6000000]⟩ 32) (r : Fin 6000000) :
    Cert.ReferenceIdeal.Agg.col6 s (ix2 r (0 : Fin 1)) = wrapWord (s (ix1 r)) :=
  (bcast_col_apply _ _ r).trans rfl

/-- The first 6000000 rows of the long index column are the index column of the first vertices. -/
private theorem idx_first (e : IVec ⟨2, ![6000000, 2]⟩ 32) (r : Fin 6000000) :
    Cert.KernelIdeal.Agg.col12 (Cert.KernelIdeal.Agg.both e) (ix2 (⟨r.val, by omega⟩ : Fin 12000000) (0 : Fin 1))
      = Cert.ReferenceIdeal.Agg.col6 (Cert.ReferenceIdeal.Agg.src e) (ix2 r (0 : Fin 1)) := by
  rw [colK12_apply, colR6_apply]
  refine congrArg wrapWord ?_
  exact (concat1_left _ _ _ r _).trans rfl

/-- The last 6000000 rows of the long index column are the index column of the second vertices. -/
private theorem idx_second (e : IVec ⟨2, ![6000000, 2]⟩ 32) (r : Fin 6000000) :
    Cert.KernelIdeal.Agg.col12 (Cert.KernelIdeal.Agg.both e) (ix2 (⟨6000000 + r.val, by omega⟩ : Fin 12000000) (0 : Fin 1))
      = Cert.ReferenceIdeal.Agg.col6 (Cert.ReferenceIdeal.Agg.dst e) (ix2 r (0 : Fin 1)) := by
  rw [colK12_apply, colR6_apply]
  refine congrArg wrapWord ?_
  exact (concat1_right _ _ _ r _).trans rfl

/-- On the extended reals the host's accumulating scatter is the exact sum. -/
private theorem scatterAdd_ideal {s si u : Shape} {w : Nat} (d : ScatterDims s si u) (x : FVec Ideal s .f32)
    (I : IVec si w) (U : FVec Ideal u .f32) : Host.scatterAdd d x I U = Ideal.hostScatterAdd d x I U := rfl

/-- The two programs' index columns are the same column. -/
private theorem col6_eq (s : IVec ⟨1, ![6000000]⟩ 32) :
    Cert.KernelIdeal.Agg.col6 s = Cert.ReferenceIdeal.Agg.col6 s := rfl

/-- The two programs' lists of second vertices are the same list. -/
private theorem dst_eq (e : IVec ⟨2, ![6000000, 2]⟩ 32) :
    Cert.KernelIdeal.Agg.dst e = Cert.ReferenceIdeal.Agg.dst e := rfl

/-- The two programs' lists of first vertices are the same list. -/
private theorem src_eq (e : IVec ⟨2, ![6000000, 2]⟩ 32) :
    Cert.KernelIdeal.Agg.src e = Cert.ReferenceIdeal.Agg.src e := rfl

/-- The two programs gather rows of 16 columns by the same dimension numbers. -/
private theorem gather16_eq :
    Cert.KernelIdeal.gather_S2000000x16_S6000000x1_S6000000x16_1_0_n_n_0_1_116
      = Cert.ReferenceIdeal.gather_S2000000x16_S6000000x1_S6000000x16_1_0_n_n_0_1_116 := rfl

/-- The two programs gather rows of 3 columns by the same dimension numbers. -/
private theorem gather3_eq :
    Cert.KernelIdeal.gather_S2000000x3_S6000000x1_S6000000x3_1_0_n_n_0_1_13
      = Cert.ReferenceIdeal.gather_S2000000x3_S6000000x1_S6000000x3_1_0_n_n_0_1_13 := rfl

/-- Over 16 columns the kernel's one scatter and the reference's two give the same neighbour sums. -/
theorem agg16_eq (h : FVec Ideal ⟨2, ![2000000, 16]⟩ .f32) (e : IVec ⟨2, ![6000000, 2]⟩ 32) :
    Cert.KernelIdeal.Agg.agg16 h e = Cert.ReferenceIdeal.Agg.agg16 h e := by
  unfold Cert.KernelIdeal.Agg.agg16 Cert.ReferenceIdeal.Agg.agg16
  rw [scatterAdd_ideal, scatterAdd_ideal, scatterAdd_ideal]
  -- each program's scatter record is the row scatter's dimension numbers
  have hK : Cert.KernelIdeal.scatter_S2000000x16_S12000000x1_S12000000x16_1_0_0_1
        = Cert.LibScatterSplit.rowScatterDims 2000000 12000000 16
            Cert.KernelIdeal.Gen.scatter_S2000000x16_S12000000x1_S12000000x16_1_0_0_1_wf := rfl
  have hR : Cert.ReferenceIdeal.scatter_S2000000x16_S6000000x1_S6000000x16_1_0_0_1
        = Cert.LibScatterSplit.rowScatterDims 2000000 6000000 16
            Cert.ReferenceIdeal.Gen.scatter_S2000000x16_S6000000x1_S6000000x16_1_0_0_1_wf := rfl
  rw [hK, hR]
  refine Cert.LibScatterSplit.rowScatterAdd_concat (N := 2000000) (E := 6000000) (E2 := 12000000) (C := 16) (w := 32)
    (by decide)
    Cert.KernelIdeal.Gen.scatter_S2000000x16_S12000000x1_S12000000x16_1_0_0_1_wf
    Cert.ReferenceIdeal.Gen.scatter_S2000000x16_S6000000x1_S6000000x16_1_0_0_1_wf
    _ _ _ _ _ _ _ (idx_first e) (idx_second e) ?_ ?_
  · -- the upper 6000000 rows of the stacked updates are the rows gathered at the second vertices
    intro r c
    rw [← gather16_eq, ← col6_eq, ← dst_eq]
    exact concat2_left _ _ _ r _ c
  · -- the lower 6000000 rows are the rows gathered at the first vertices
    intro r c
    rw [← gather16_eq, ← col6_eq, ← src_eq]
    exact concat2_right _ _ _ r _ c

/-- Over 3 columns the kernel's one scatter and the reference's two give the same neighbour sums. -/
theorem agg3_eq (h : FVec Ideal ⟨2, ![2000000, 3]⟩ .f32) (e : IVec ⟨2, ![6000000, 2]⟩ 32) :
    Cert.KernelIdeal.Agg.agg3 h e = Cert.ReferenceIdeal.Agg.agg3 h e := by
  unfold Cert.KernelIdeal.Agg.agg3 Cert.ReferenceIdeal.Agg.agg3
  rw [scatterAdd_ideal, scatterAdd_ideal, scatterAdd_ideal]
  -- each program's scatter record is the row scatter's dimension numbers
  have hK : Cert.KernelIdeal.scatter_S2000000x3_S12000000x1_S12000000x3_1_0_0_1
        = Cert.LibScatterSplit.rowScatterDims 2000000 12000000 3
            Cert.KernelIdeal.Gen.scatter_S2000000x3_S12000000x1_S12000000x3_1_0_0_1_wf := rfl
  have hR : Cert.ReferenceIdeal.scatter_S2000000x3_S6000000x1_S6000000x3_1_0_0_1
        = Cert.LibScatterSplit.rowScatterDims 2000000 6000000 3
            Cert.ReferenceIdeal.Gen.scatter_S2000000x3_S6000000x1_S6000000x3_1_0_0_1_wf := rfl
  rw [hK, hR]
  refine Cert.LibScatterSplit.rowScatterAdd_concat (N := 2000000) (E := 6000000) (E2 := 12000000) (C := 3) (w := 32)
    (by decide)
    Cert.KernelIdeal.Gen.scatter_S2000000x3_S12000000x1_S12000000x3_1_0_0_1_wf
    Cert.ReferenceIdeal.Gen.scatter_S2000000x3_S6000000x1_S6000000x3_1_0_0_1_wf
    _ _ _ _ _ _ _ (idx_first e) (idx_second e) ?_ ?_
  · -- the upper 6000000 rows of the stacked updates are the rows gathered at the second vertices
    intro r c
    rw [← gather3_eq, ← col6_eq, ← dst_eq]
    exact concat2_left _ _ _ r _ c
  · -- the lower 6000000 rows are the rows gathered at the first vertices
    intro r c
    rw [← gather3_eq, ← col6_eq, ← src_eq]
    exact concat2_right _ _ _ r _ c

end Cert.Bridge

end
-- ==== Proof.KernelValue.lean ====
/-
  What the kernel's program leaves in its result buffer, as one function of the argument arrays.

  The program is three kernel regions among stretches of host operations.  Before the first region the host stacks
  the two weight matrices of each layer and joins the two bias vectors, and cuts the edge list into its two vertex
  lists.  Region 0 computes the stacked first dense layer; the host cuts it into its two halves, gathers and scatters the
  second half along the edges; region 1 adds the first half and the neighbour sums, rectifies and computes the stacked
  second dense layer; the host cuts, gathers and scatters again; region 2 adds the first half and the neighbour sums.
  Each boundary's contents are read through the fold of the run: a host stretch's results are its operations' values,
  a region's result array is its closed form, and everything else is carried over.
-/
import proofs.«110151_j90297392431231_1_alg».proof.Proof.Gen.KernelIdeal.Frame
import proofs.«110151_j90297392431231_1_alg».proof.Proof.Spec
import proofs.«110151_j90297392431231_1_alg».proof.Proof.Region0
import proofs.«110151_j90297392431231_1_alg».proof.Proof.Region1
import proofs.«110151_j90297392431231_1_alg».proof.Proof.Region2
import proofs.«110151_j90297392431231_1_alg».proof.Proof.ScatterBridge
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

/-- The first layer's two weight matrices stacked, its two bias vectors joined, and likewise the second layer's. -/
def wc1 (a2 a4 : FVec Ideal S16x3 .f32) : FVec Ideal S32x3 .f32 :=
  concatenate S32x3 0 [⟨S16x3, a2⟩, ⟨S16x3, a4⟩] concatenates_S16x3_S16x3_S32x3_d0
def bc1 (a3 a5 : FVec Ideal S16 .f32) : FVec Ideal S32 .f32 :=
  concatenate S32 0 [⟨S16, a3⟩, ⟨S16, a5⟩] concatenates_S16_S16_S32_d0
def wc2 (a6 a8 : FVec Ideal S3x16 .f32) : FVec Ideal S6x16 .f32 :=
  concatenate S6x16 0 [⟨S3x16, a6⟩, ⟨S3x16, a8⟩] concatenates_S3x16_S3x16_S6x16_d0
def bc2 (a7 a9 : FVec Ideal S3 .f32) : FVec Ideal S6 .f32 :=
  concatenate S6 0 [⟨S3, a7⟩, ⟨S3, a9⟩] concatenates_S3_S3_S6_d0

/-- The stacked first layer, 32 columns. -/
def h01 (a0 : FVec Ideal S2000000x3 .f32) (a2 a4 : FVec Ideal S16x3 .f32) (a3 a5 : FVec Ideal S16 .f32) : FVec Ideal S2000000x32 .f32 :=
  Cert.Spec.dense a0 (wc1 a2 a4) (bc1 a3 a5)
/-- Its first and second halves. -/
def lo16 (x : FVec Ideal S2000000x32 .f32) : FVec Ideal S2000000x16 .f32 :=
  extractStridedSlice S2000000x16 ![0, 0] x slices_S2000000x32_S2000000x16_0_0
def hi16 (x : FVec Ideal S2000000x32 .f32) : FVec Ideal S2000000x16 .f32 :=
  extractStridedSlice S2000000x16 ![0, 16] x slices_S2000000x32_S2000000x16_0_16
/-- The stacked second layer, 6 columns, of the rectified first layer. -/
def h02 (x : FVec Ideal S2000000x32 .f32) (a1 : IVec S6000000x2 32) (a6 a8 : FVec Ideal S3x16 .f32) (a7 a9 : FVec Ideal S3 .f32) : FVec Ideal S2000000x6 .f32 :=
  Cert.Spec.dense (Cert.Spec.relu (Cert.Spec.plus (lo16 x) (Agg.agg16 (hi16 x) a1))) (wc2 a6 a8) (bc2 a7 a9)
def lo3 (x : FVec Ideal S2000000x6 .f32) : FVec Ideal S2000000x3 .f32 :=
  extractStridedSlice S2000000x3 ![0, 0] x slices_S2000000x6_S2000000x3_0_0
def hi3 (x : FVec Ideal S2000000x6 .f32) : FVec Ideal S2000000x3 .f32 :=
  extractStridedSlice S2000000x3 ![0, 3] x slices_S2000000x6_S2000000x3_0_3
/-- The kernel's result. -/
def out (a0 : FVec Ideal S2000000x3 .f32) (a1 : IVec S6000000x2 32) (a2 a4 : FVec Ideal S16x3 .f32) (a3 a5 : FVec Ideal S16 .f32)
    (a6 a8 : FVec Ideal S3x16 .f32) (a7 a9 : FVec Ideal S3 .f32) : FVec Ideal S2000000x3 .f32 :=
  Cert.Spec.plus (lo3 (h02 (h01 a0 a2 a4 a3 a5) a1 a6 a8 a7 a9)) (Agg.agg3 (hi3 (h02 (h01 a0 a2 a4 a3 a5) a1 a6 a8 a7 a9)) a1)

variable (m : (ℓ : Loc nD τ sig) → Buf (Elt Ideal) ℓ) (ρ : Dev nD → PrngReg) (c : Dev nD)

/-! ## Before region 0 -/

theorem W1_arg0 : W1 m ρ c (Proc.devRef .tc main_arg0) = m ((c : Thread nD τ).loc main_arg0) := by
  show StableHlo.after hostOps0 (W0 m ρ c) (Proc.devRef .tc main_arg0) = _
  after_results
theorem W1_v0 : W1 m ρ c (Proc.devRef .tc main_v0) = wc1 (m ((c : Thread nD τ).loc main_arg2)) (m ((c : Thread nD τ).loc main_arg4)) := by
  show StableHlo.after hostOps0 (W0 m ρ c) (Proc.devRef .tc main_v0) = _
  after_results; rfl
theorem W1_v1 : W1 m ρ c (Proc.devRef .tc main_v1) = bc1 (m ((c : Thread nD τ).loc main_arg3)) (m ((c : Thread nD τ).loc main_arg5)) := by
  show StableHlo.after hostOps0 (W0 m ρ c) (Proc.devRef .tc main_v1) = _
  after_results; rfl
theorem W1_v2 : W1 m ρ c (Proc.devRef .tc main_v2) = wc2 (m ((c : Thread nD τ).loc main_arg6)) (m ((c : Thread nD τ).loc main_arg8)) := by
  show StableHlo.after hostOps0 (W0 m ρ c) (Proc.devRef .tc main_v2) = _
  after_results; rfl
theorem W1_v3 : W1 m ρ c (Proc.devRef .tc main_v3) = bc2 (m ((c : Thread nD τ).loc main_arg7)) (m ((c : Thread nD τ).loc main_arg9)) := by
  show StableHlo.after hostOps0 (W0 m ρ c) (Proc.devRef .tc main_v3) = _
  after_results; rfl
theorem W1_v5 : W1 m ρ c (Proc.devRef .tc main_v5) = Agg.src (m ((c : Thread nD τ).loc main_arg1)) := by
  show StableHlo.after hostOps0 (W0 m ρ c) (Proc.devRef .tc main_v5) = _
  after_results; rfl
theorem W1_v7 : W1 m ρ c (Proc.devRef .tc main_v7) = Agg.dst (m ((c : Thread nD τ).loc main_arg1)) := by
  show StableHlo.after hostOps0 (W0 m ρ c) (Proc.devRef .tc main_v7) = _
  after_results; rfl
theorem W1_v8 : W1 m ρ c (Proc.devRef .tc main_v8) = Agg.both (m ((c : Thread nD τ).loc main_arg1)) := by
  show StableHlo.after hostOps0 (W0 m ρ c) (Proc.devRef .tc main_v8) = _
  after_results; rfl

/-! ## Region 0 and the host stretch after it -/

theorem W2_v9 : W2 m ρ c (Proc.devRef .tc main_v9)
    = h01 (m ((c : Thread nD τ).loc main_arg0)) (m ((c : Thread nD τ).loc main_arg2)) (m ((c : Thread nD τ).loc main_arg4))
        (m ((c : Thread nD τ).loc main_arg3)) (m ((c : Thread nD τ).loc main_arg5)) := by
  refine (W2_arr m ρ c 3).trans ((RegionValue.arr0 (V1 m ρ) c).trans ?_)
  show Cert.Spec.dense (W1 m ρ c (Proc.devRef .tc main_arg0)) (W1 m ρ c (Proc.devRef .tc main_v0)) (W1 m ρ c (Proc.devRef .tc main_v1)) = _
  rw [W1_arg0, W1_v0, W1_v1]; rfl

theorem W2_v2 : W2 m ρ c (Proc.devRef .tc main_v2) = wc2 (m ((c : Thread nD τ).loc main_arg6)) (m ((c : Thread nD τ).loc main_arg8)) :=
  (W2_of_ne m ρ c main_v2 (by decide)).trans (W1_v2 m ρ c)
theorem W2_v3 : W2 m ρ c (Proc.devRef .tc main_v3) = bc2 (m ((c : Thread nD τ).loc main_arg7)) (m ((c : Thread nD τ).loc main_arg9)) :=
  (W2_of_ne m ρ c main_v3 (by decide)).trans (W1_v3 m ρ c)
theorem W2_v5 : W2 m ρ c (Proc.devRef .tc main_v5) = Agg.src (m ((c : Thread nD τ).loc main_arg1)) :=
  (W2_of_ne m ρ c main_v5 (by decide)).trans (W1_v5 m ρ c)
theorem W2_v7 : W2 m ρ c (Proc.devRef .tc main_v7) = Agg.dst (m ((c : Thread nD τ).loc main_arg1)) :=
  (W2_of_ne m ρ c main_v7 (by decide)).trans (W1_v7 m ρ c)
theorem W2_v8 : W2 m ρ c (Proc.devRef .tc main_v8) = Agg.both (m ((c : Thread nD τ).loc main_arg1)) :=
  (W2_of_ne m ρ c main_v8 (by decide)).trans (W1_v8 m ρ c)

theorem W3_v10 : W3 m ρ c (Proc.devRef .tc main_v10) = lo16 (W2 m ρ c (Proc.devRef .tc main_v9)) := by
  show StableHlo.after hostOps1 (W2 m ρ c) (Proc.devRef .tc main_v10) = _
  after_results; rfl
set_option maxHeartbeats 100000000 in
theorem W3_v34 : W3 m ρ c (Proc.devRef .tc main_v34)
    = Agg.agg16 (hi16 (W2 m ρ c (Proc.devRef .tc main_v9))) (m ((c : Thread nD τ).loc main_arg1)) := by
  show StableHlo.after hostOps1 (W2 m ρ c) (Proc.devRef .tc main_v34) = _
  after_results
  rw [W2_v5, W2_v7, W2_v8]; rfl
theorem W3_v2 : W3 m ρ c (Proc.devRef .tc main_v2) = wc2 (m ((c : Thread nD τ).loc main_arg6)) (m ((c : Thread nD τ).loc main_arg8)) := by
  show StableHlo.after hostOps1 (W2 m ρ c) (Proc.devRef .tc main_v2) = _
  after_results; exact W2_v2 m ρ c
theorem W3_v3 : W3 m ρ c (Proc.devRef .tc main_v3) = bc2 (m ((c : Thread nD τ).loc main_arg7)) (m ((c : Thread nD τ).loc main_arg9)) := by
  show StableHlo.after hostOps1 (W2 m ρ c) (Proc.devRef .tc main_v3) = _
  after_results; exact W2_v3 m ρ c
theorem W3_v5 : W3 m ρ c (Proc.devRef .tc main_v5) = Agg.src (m ((c : Thread nD τ).loc main_arg1)) := by
  show StableHlo.after hostOps1 (W2 m ρ c) (Proc.devRef .tc main_v5) = _
  after_results; exact W2_v5 m ρ c
theorem W3_v7 : W3 m ρ c (Proc.devRef .tc main_v7) = Agg.dst (m ((c : Thread nD τ).loc main_arg1)) := by
  show StableHlo.after hostOps1 (W2 m ρ c) (Proc.devRef .tc main_v7) = _
  after_results; exact W2_v7 m ρ c
theorem W3_v8 : W3 m ρ c (Proc.devRef .tc main_v8) = Agg.both (m ((c : Thread nD τ).loc main_arg1)) := by
  show StableHlo.after hostOps1 (W2 m ρ c) (Proc.devRef .tc main_v8) = _
  after_results; exact W2_v8 m ρ c

/-! ## Region 1 and the host stretch after it -/

theorem W4_v35 : W4 m ρ c (Proc.devRef .tc main_v35)
    = h02 (W2 m ρ c (Proc.devRef .tc main_v9)) (m ((c : Thread nD τ).loc main_arg1))
        (m ((c : Thread nD τ).loc main_arg6)) (m ((c : Thread nD τ).loc main_arg8)) (m ((c : Thread nD τ).loc main_arg7)) (m ((c : Thread nD τ).loc main_arg9)) := by
  refine (W4_arr m ρ c 4).trans ((RegionValue.arr1 (V3 m ρ) c).trans ?_)
  show Cert.Spec.dense (Cert.Spec.relu (Cert.Spec.plus (W3 m ρ c (Proc.devRef .tc main_v10)) (W3 m ρ c (Proc.devRef .tc main_v34))))
      (W3 m ρ c (Proc.devRef .tc main_v2)) (W3 m ρ c (Proc.devRef .tc main_v3)) = _
  rw [W3_v10, W3_v34, W3_v2, W3_v3]; rfl

theorem W4_v5 : W4 m ρ c (Proc.devRef .tc main_v5) = Agg.src (m ((c : Thread nD τ).loc main_arg1)) :=
  (W4_of_ne m ρ c main_v5 (by decide)).trans (W3_v5 m ρ c)
theorem W4_v7 : W4 m ρ c (Proc.devRef .tc main_v7) = Agg.dst (m ((c : Thread nD τ).loc main_arg1)) :=
  (W4_of_ne m ρ c main_v7 (by decide)).trans (W3_v7 m ρ c)
theorem W4_v8 : W4 m ρ c (Proc.devRef .tc main_v8) = Agg.both (m ((c : Thread nD τ).loc main_arg1)) :=
  (W4_of_ne m ρ c main_v8 (by decide)).trans (W3_v8 m ρ c)

theorem W5_v36 : W5 m ρ c (Proc.devRef .tc main_v36) = lo3 (W4 m ρ c (Proc.devRef .tc main_v35)) := by
  show StableHlo.after hostOps2 (W4 m ρ c) (Proc.devRef .tc main_v36) = _
  after_results; rfl
set_option maxHeartbeats 100000000 in
theorem W5_v60 : W5 m ρ c (Proc.devRef .tc main_v60)
    = Agg.agg3 (hi3 (W4 m ρ c (Proc.devRef .tc main_v35))) (m ((c : Thread nD τ).loc main_arg1)) := by
  show StableHlo.after hostOps2 (W4 m ρ c) (Proc.devRef .tc main_v60) = _
  after_results
  rw [W4_v5, W4_v7, W4_v8]; rfl

/-! ## Region 2: the result -/

/-- The result buffer at the last boundary is the kernel's function of the argument arrays. -/
theorem W6_result : W6 m ρ c (Proc.devRef .tc main_v61)
    = out (m ((c : Thread nD τ).loc main_arg0)) (m ((c : Thread nD τ).loc main_arg1)) (m ((c : Thread nD τ).loc main_arg2)) (m ((c : Thread nD τ).loc main_arg4))
        (m ((c : Thread nD τ).loc main_arg3)) (m ((c : Thread nD τ).loc main_arg5)) (m ((c : Thread nD τ).loc main_arg6)) (m ((c : Thread nD τ).loc main_arg8))
        (m ((c : Thread nD τ).loc main_arg7)) (m ((c : Thread nD τ).loc main_arg9)) := by
  refine (W6_arr m ρ c 2).trans ((RegionValue.arr2 (V5 m ρ) c).trans ?_)
  show Cert.Spec.plus (W5 m ρ c (Proc.devRef .tc main_v36)) (W5 m ρ c (Proc.devRef .tc main_v60)) = _
  rw [W5_v36, W5_v60, W4_v35, W2_v9]; rfl

end Cert.KernelIdeal.KValue

end
-- ==== Proof.RefDense.lean ====
/-
  The reference's dense layers.  The reference computes  X · Wᵀ + b  as a general dot product of X with the transposed
  weight matrix, plus the bias vector broadcast first to a one-row matrix and then down the rows.  Entry (r, c) of that
  is  Σ_κ X[r, κ] · W[c, κ] + b[c]:  the dense layer of the specification.
-/
import proofs.«110151_j90297392431231_1_alg».proof.Proof.Gen.ReferenceIdeal.Read
import proofs.«110151_j90297392431231_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.ShloMosaic.ValueIdx

/-- The reference's first-layer projection (3 features to 16) is the dense layer. -/
theorem ref_layer1 (X : FVec Ideal S2000000x3 .f32) (W : FVec Ideal S16x3 .f32) (b : FVec Ideal S16 .f32) :
    addf (Host.dotGeneral dot_S2000000x3_S3x16_S2000000x16_1_0_0_1_n_n none X (transpose S3x16 [1, 0] W transposes_S16x3_S3x16_1_0))
        (broadcastInDim S2000000x16 ![0, 1] bcast_S1x16_S2000000x16_0_1 (broadcastInDim S1x16 ![1] bcast_S16_S1x16_1 b))
      = Cert.Spec.dense X W b := by
  funext i
  obtain ⟨r, c, rfl⟩ : ∃ r c, i = ix2 r c := ⟨i 0, i 1, eq_ix2 i⟩
  -- entry (r, c) of the sum is the dot product's entry plus the broadcast bias's entry
  refine (Read.val_main_v4_apply (F := Ideal) X W b (ix2 r c)).trans ?_
  rw [Read.val_main_v1_apply, Read.val_main_v3_apply, Read.val_main_v2_apply, Cert.Spec.dense_apply]
  -- the bias is read at column c
  have hb : Read.idx_main_v2 (Read.idx_main_v3 (ix2 r c)) = ix1 c :=
    funext fun a => Fin.ext (by match a with | ⟨0, _⟩ => rfl)
  rw [hb]
  refine congrArg (· + b (ix1 c)) (Finset.sum_congr rfl fun κ _ => ?_)
  -- term κ of the contraction: X at (r, κ) times the transposed W at (κ, c), which is W at (c, κ)
  rw [Read.val_main_v0_apply]
  have hl : Read.lidx_main_v1 (ix2 r c) κ = ix2 r κ :=
    funext fun a => Fin.ext (by match a with | ⟨0, _⟩ => rfl | ⟨1, _⟩ => rfl)
  have hr : Read.idx_main_v0 (Read.ridx_main_v1 (ix2 r c) κ) = ix2 c κ :=
    funext fun a => Fin.ext (by match a with | ⟨0, _⟩ => rfl | ⟨1, _⟩ => rfl)
  rw [hl, hr]

/-- The second layer's general dot product at an index: the sum over the one contracted axis of the left operand at
    (row, κ) times the right operand at (κ, column). -/
private theorem dot2_apply (X : FVec Ideal S2000000x16 .f32) (Y : FVec Ideal S16x3 .f32) (i : S2000000x3.Idx) :
    Host.dotGeneral dot_S2000000x16_S16x3_S2000000x3_1_0_0_1_n_n none X Y i
      = ∑ κ : Fin 16, X (Read.lidx_main_v46 i κ) * Y (Read.ridx_main_v46 i κ) := by
  simp only [Host.dotGeneral]
  -- re-index the sum over the contraction shape's one axis by that axis's coordinate
  rw [Ideal.dotGeneral_apply,
    ← Equiv.sum_comp (contrEquiv1 dot_S2000000x16_S16x3_S2000000x3_1_0_0_1_n_n 16 rfl rfl).symm]
  refine Finset.sum_congr rfl fun κ _ => ?_
  have hκ := contrEquiv1_symm_val dot_S2000000x16_S16x3_S2000000x3_1_0_0_1_n_n 16 rfl rfl κ
  -- the left operand's index keeps the row and takes κ on the contracted axis
  have el : dot_S2000000x16_S16x3_S2000000x3_1_0_0_1_n_n.lhsIdx i
      ((contrEquiv1 dot_S2000000x16_S16x3_S2000000x3_1_0_0_1_n_n 16 rfl rfl).symm κ) = Read.lidx_main_v46 i κ :=
    funext fun a => Fin.ext (by
      match a with
      | ⟨0, _⟩ => exact Read.lhs_main_v46_0 _ _
      | ⟨1, _⟩ => exact (Read.lhs_main_v46_1 _ _).trans hκ)
  -- the right operand's index takes κ on the contracted axis and keeps the column
  have er : dot_S2000000x16_S16x3_S2000000x3_1_0_0_1_n_n.rhsIdx i
      ((contrEquiv1 dot_S2000000x16_S16x3_S2000000x3_1_0_0_1_n_n 16 rfl rfl).symm κ) = Read.ridx_main_v46 i κ :=
    funext fun a => Fin.ext (by
      match a with
      | ⟨0, _⟩ => exact (Read.rhs_main_v46_0 _ _).trans hκ
      | ⟨1, _⟩ => exact Read.rhs_main_v46_1 _ _)
  rw [el, er]

/-- The reference's second-layer projection (16 features to 3) is the dense layer. -/
theorem ref_layer2 (X : FVec Ideal S2000000x16 .f32) (W : FVec Ideal S3x16 .f32) (b : FVec Ideal S3 .f32) :
    addf (Host.dotGeneral dot_S2000000x16_S16x3_S2000000x3_1_0_0_1_n_n none X (transpose S16x3 [1, 0] W transposes_S3x16_S16x3_1_0))
        (broadcastInDim S2000000x3 ![0, 1] bcast_S1x3_S2000000x3_0_1 (broadcastInDim S1x3 ![1] bcast_S3_S1x3_1 b))
      = Cert.Spec.dense X W b := by
  funext i
  obtain ⟨r, c, rfl⟩ : ∃ r c, i = ix2 r c := ⟨i 0, i 1, eq_ix2 i⟩
  -- entry (r, c) of the sum is the dot product's entry plus the broadcast bias's entry
  rw [addf_apply, dot2_apply, Cert.Spec.dense_apply]
  -- the two broadcasts read the bias at column c
  have hb : broadcastInDim S2000000x3 ![0, 1] bcast_S1x3_S2000000x3_0_1 (broadcastInDim S1x3 ![1] bcast_S3_S1x3_1 b) (ix2 r c)
      = b (ix1 c) := by
    refine (Read.val_main_v48_apply (F := Ideal) b (ix2 r c)).trans ?_
    rw [Read.val_main_v47_apply]
    exact congrArg b (funext fun a => Fin.ext (by match a with | ⟨0, _⟩ => rfl))
  rw [hb]
  refine congrArg (· + b (ix1 c)) (Finset.sum_congr rfl fun κ _ => ?_)
  -- term κ of the contraction: X at (r, κ) times the transposed W at (κ, c), which is W at (c, κ)
  have hw : transpose S16x3 [1, 0] W transposes_S3x16_S16x3_1_0 (Read.ridx_main_v46 (ix2 r c) κ) = W (ix2 c κ) := by
    refine (Read.val_main_v45_apply (F := Ideal) W _).trans ?_
    exact congrArg W (funext fun a => Fin.ext (by match a with | ⟨0, _⟩ => rfl | ⟨1, _⟩ => rfl))
  have hl : Read.lidx_main_v46 (ix2 r c) κ = ix2 r κ :=
    funext fun a => Fin.ext (by match a with | ⟨0, _⟩ => rfl | ⟨1, _⟩ => rfl)
  rw [hw, hl]

end Cert.ReferenceIdeal.RefValue

end
-- ==== Proof.LibDenseSplit.lean ====
/-
  A dense layer against two weight matrices stacked one over the other (and the two bias vectors laid end to end)
  computes the two dense layers side by side: its first o columns are the layer of the first matrix and bias, its last
  o columns the layer of the second.

  Entry (r, c) of the stacked layer is row r of X against row c of the stacked matrix plus entry c of the joined bias;
  for c < o those are row c of the first matrix and entry c of the first bias, for c = o + c' row c' of the second matrix
  and entry c' of the second bias.
-/
import proofs.«110151_j90297392431231_1_alg».proof.Proof.Spec
import Idealize.ShloMosaic.Lib.Pipeline.Value
import Idealize.ShloMosaic.Lib.ValueIdx

noncomputable section

open scoped BigOperators

namespace Cert.LibDenseSplit

open Idealize.ShloMosaic Idealize.ShloMosaic.ValueIdx

/-- The first o columns of the stacked dense layer are the dense layer of the first weight matrix and bias. -/
theorem slice_dense_concat_lo {n k o o2 : Nat} (X : FVec Ideal ⟨2, ![n, k]⟩ .f32)
    (W0 W1 : FVec Ideal ⟨2, ![o, k]⟩ .f32) (B0 B1 : FVec Ideal ⟨1, ![o]⟩ .f32)
    (hcW : Shape.Concatenates [(⟨2, ![o, k]⟩ : Shape), ⟨2, ![o, k]⟩] ⟨2, ![o2, k]⟩ 0)
    (hcB : Shape.Concatenates [(⟨1, ![o]⟩ : Shape), ⟨1, ![o]⟩] ⟨1, ![o2]⟩ 0)
    (hs : (⟨2, ![n, o2]⟩ : Shape).Slices ![0, 0] ⟨2, ![n, o]⟩) :
    extractStridedSlice ⟨2, ![n, o]⟩ ![0, 0]
        (Cert.Spec.dense X (concatenate ⟨2, ![o2, k]⟩ 0 [⟨⟨2, ![o, k]⟩, W0⟩, ⟨⟨2, ![o, k]⟩, W1⟩] hcW)
          (concatenate ⟨1, ![o2]⟩ 0 [⟨⟨1, ![o]⟩, B0⟩, ⟨⟨1, ![o]⟩, B1⟩] hcB)) hs
      = Cert.Spec.dense X W0 B0 := by
  funext j
  obtain ⟨r, c, rfl⟩ : ∃ (r : Fin n) (c : Fin o), j = ix2 r c := ⟨j 0, j 1, eq_ix2 j⟩
  -- the extents along the stacking axis add up
  have ho : o + o = o2 := by
    have e := hcW.2.2
    simpa using e
  have hc : c.val < o2 := by have := c.isLt; omega
  -- the slice at (r, c) reads the stacked layer at (r, c)
  refine (extractStridedSlice_apply (s := ⟨2, ![n, o2]⟩) ![0, 0] _ hs (ix2 r c) (ix2 r ⟨c.val, hc⟩) ?_).trans ?_
  · intro a
    match a with
    | ⟨0, _⟩ => show r.val = 0 + r.val; omega
    | ⟨1, _⟩ => show c.val = 0 + c.val; omega
  rw [Cert.Spec.dense_apply, Cert.Spec.dense_apply]
  refine congrArg₂ (· + ·) (Finset.sum_congr rfl fun κ _ => congrArg (X (ix2 r κ) * ·) ?_) ?_
  · -- row c of the stacked matrix is row c of the first matrix
    refine concatenate_pair_apply_left (t := ⟨2, ![o2, k]⟩) 0 W0 W1 hcW (ix2 ⟨c.val, hc⟩ κ) rfl (ix2 c κ) fun b => ?_
    match b with
    | ⟨0, _⟩ => rfl
    | ⟨1, _⟩ => rfl
  · -- entry c of the joined bias is entry c of the first bias
    refine concatenate_pair_apply_left (t := ⟨1, ![o2]⟩) 0 B0 B1 hcB (ix1 ⟨c.val, hc⟩) rfl (ix1 c) fun b => ?_
    match b with
    | ⟨0, _⟩ => rfl

/-- The last o columns of the stacked dense layer are the dense layer of the second weight matrix and bias. -/
theorem slice_dense_concat_hi {n k o o2 : Nat} (X : FVec Ideal ⟨2, ![n, k]⟩ .f32)
    (W0 W1 : FVec Ideal ⟨2, ![o, k]⟩ .f32) (B0 B1 : FVec Ideal ⟨1, ![o]⟩ .f32)
    (hcW : Shape.Concatenates [(⟨2, ![o, k]⟩ : Shape), ⟨2, ![o, k]⟩] ⟨2, ![o2, k]⟩ 0)
    (hcB : Shape.Concatenates [(⟨1, ![o]⟩ : Shape), ⟨1, ![o]⟩] ⟨1, ![o2]⟩ 0)
    (hs : (⟨2, ![n, o2]⟩ : Shape).Slices ![0, o] ⟨2, ![n, o]⟩) :
    extractStridedSlice ⟨2, ![n, o]⟩ ![0, o]
        (Cert.Spec.dense X (concatenate ⟨2, ![o2, k]⟩ 0 [⟨⟨2, ![o, k]⟩, W0⟩, ⟨⟨2, ![o, k]⟩, W1⟩] hcW)
          (concatenate ⟨1, ![o2]⟩ 0 [⟨⟨1, ![o]⟩, B0⟩, ⟨⟨1, ![o]⟩, B1⟩] hcB)) hs
      = Cert.Spec.dense X W1 B1 := by
  funext j
  obtain ⟨r, c, rfl⟩ : ∃ (r : Fin n) (c : Fin o), j = ix2 r c := ⟨j 0, j 1, eq_ix2 j⟩
  -- the extents along the stacking axis add up
  have ho : o + o = o2 := by
    have e := hcW.2.2
    simpa using e
  have hc : o + c.val < o2 := by have := c.isLt; omega
  -- the slice at (r, c) reads the stacked layer at (r, o + c)
  refine (extractStridedSlice_apply (s := ⟨2, ![n, o2]⟩) ![0, o] _ hs (ix2 r c) (ix2 r ⟨o + c.val, hc⟩) ?_).trans ?_
  · intro a
    match a with
    | ⟨0, _⟩ => show r.val = 0 + r.val; omega
    | ⟨1, _⟩ => show o + c.val = o + c.val; rfl
  rw [Cert.Spec.dense_apply, Cert.Spec.dense_apply]
  refine congrArg₂ (· + ·) (Finset.sum_congr rfl fun κ _ => congrArg (X (ix2 r κ) * ·) ?_) ?_
  · -- row o + c of the stacked matrix is row c of the second matrix
    refine concatenate_pair_apply_right (t := ⟨2, ![o2, k]⟩) 0 W0 W1 hcW (ix2 ⟨o + c.val, hc⟩ κ) rfl rfl (ix2 c κ)
      (fun b hb => ?_) ?_
    · match b with
      | ⟨0, _⟩ => exact absurd rfl hb
      | ⟨1, _⟩ => rfl
    · show c.val + o = o + c.val; omega
  · -- entry o + c of the joined bias is entry c of the second bias
    refine concatenate_pair_apply_right (t := ⟨1, ![o2]⟩) 0 B0 B1 hcB (ix1 ⟨o + c.val, hc⟩) rfl rfl (ix1 c)
      (fun b hb => ?_) ?_
    · match b with
      | ⟨0, _⟩ => exact absurd rfl hb
    · show c.val + o = o + c.val; omega

end Cert.LibDenseSplit

end
-- ==== Proof.Bridge.lean ====
/-
  The two programs compute one function of the argument arrays.

  The reference: two graph-convolution layers, each  (X · W0ᵀ + b0) + Σ_neighbours (X · W1ᵀ + b1),  the first followed by
  the maximum with zero.  The kernel's program: each layer's two projections computed at once against the stacked
  weights and cut apart afterwards, and each layer's neighbour sums by one scatter over the edge list read both ways
  in place of two.  The first and last columns of a stacked dense layer are the two dense layers, and the one scatter
  is the two scatters, so the results agree entry by entry on the extended reals; nothing here needs the inputs to be
  finite (only that addition is associative and commutative).
-/
import proofs.«110151_j90297392431231_1_alg».proof.Proof.KernelValue
import proofs.«110151_j90297392431231_1_alg».proof.Proof.Gen.ReferenceIdeal.Run
import proofs.«110151_j90297392431231_1_alg».proof.Proof.RefDense
import proofs.«110151_j90297392431231_1_alg».proof.Proof.LibDenseSplit
import proofs.«110151_j90297392431231_1_alg».proof.Proof.ScatterBridge

set_option maxRecDepth 16384

noncomputable section

namespace Cert.Bridge

open Idealize.ShloMosaic Idealize.ShloMosaic.TcCoe Idealize.SL.Sem

/-- The reference's result as a function of the argument arrays: the two layers over the specification's dense layer
    and the reference's own two-scatter neighbour sums. -/
def refOut (a0 : FVec Ideal ⟨2, ![2000000, 3]⟩ .f32) (a1 : IVec ⟨2, ![6000000, 2]⟩ 32)
    (a2 a4 : FVec Ideal ⟨2, ![16, 3]⟩ .f32) (a3 a5 : FVec Ideal ⟨1, ![16]⟩ .f32)
    (a6 a8 : FVec Ideal ⟨2, ![3, 16]⟩ .f32) (a7 a9 : FVec Ideal ⟨1, ![3]⟩ .f32) : FVec Ideal ⟨2, ![2000000, 3]⟩ .f32 :=
  Cert.Spec.plus
    (Cert.Spec.dense (Cert.Spec.relu (Cert.Spec.plus (Cert.Spec.dense a0 a2 a3) (Cert.ReferenceIdeal.Agg.agg16 (Cert.Spec.dense a0 a4 a5) a1))) a6 a7)
    (Cert.ReferenceIdeal.Agg.agg3
      (Cert.Spec.dense (Cert.Spec.relu (Cert.Spec.plus (Cert.Spec.dense a0 a2 a3) (Cert.ReferenceIdeal.Agg.agg16 (Cert.Spec.dense a0 a4 a5) a1))) a8 a9) a1)

/-- The kernel's function of the argument arrays is the reference's. -/
theorem out_eq (a0 : FVec Ideal ⟨2, ![2000000, 3]⟩ .f32) (a1 : IVec ⟨2, ![6000000, 2]⟩ 32)
    (a2 a4 : FVec Ideal ⟨2, ![16, 3]⟩ .f32) (a3 a5 : FVec Ideal ⟨1, ![16]⟩ .f32)
    (a6 a8 : FVec Ideal ⟨2, ![3, 16]⟩ .f32) (a7 a9 : FVec Ideal ⟨1, ![3]⟩ .f32) :
    Cert.KernelIdeal.KValue.out a0 a1 a2 a4 a3 a5 a6 a8 a7 a9 = refOut a0 a1 a2 a4 a3 a5 a6 a8 a7 a9 := by
  have e0 : Cert.KernelIdeal.KValue.lo16 (Cert.KernelIdeal.KValue.h01 a0 a2 a4 a3 a5) = Cert.Spec.dense a0 a2 a3 :=
    Cert.LibDenseSplit.slice_dense_concat_lo a0 a2 a4 a3 a5 _ _ _
  have e1 : Cert.KernelIdeal.KValue.hi16 (Cert.KernelIdeal.KValue.h01 a0 a2 a4 a3 a5) = Cert.Spec.dense a0 a4 a5 :=
    Cert.LibDenseSplit.slice_dense_concat_hi a0 a2 a4 a3 a5 _ _ _
  have e2 : ∀ X : FVec Ideal ⟨2, ![2000000, 16]⟩ .f32,
      Cert.KernelIdeal.KValue.lo3 (Cert.Spec.dense X (Cert.KernelIdeal.KValue.wc2 a6 a8) (Cert.KernelIdeal.KValue.bc2 a7 a9)) = Cert.Spec.dense X a6 a7 :=
    fun X => Cert.LibDenseSplit.slice_dense_concat_lo X a6 a8 a7 a9 _ _ _
  have e3 : ∀ X : FVec Ideal ⟨2, ![2000000, 16]⟩ .f32,
      Cert.KernelIdeal.KValue.hi3 (Cert.Spec.dense X (Cert.KernelIdeal.KValue.wc2 a6 a8) (Cert.KernelIdeal.KValue.bc2 a7 a9)) = Cert.Spec.dense X a8 a9 :=
    fun X => Cert.LibDenseSplit.slice_dense_concat_hi X a6 a8 a7 a9 _ _ _
  unfold Cert.KernelIdeal.KValue.out Cert.KernelIdeal.KValue.h02 refOut
  rw [e0, e1, e2, e3, agg16_eq, agg3_eq]

/-- The reference run's result term is that function of the arguments. -/
theorem ref_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v88 (F := Ideal) m c
      = refOut (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg9)) := by
  unfold Cert.ReferenceIdeal.Value.res_main_v88
  rw [Cert.ReferenceIdeal.RefValue.ref_layer1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)),
    Cert.ReferenceIdeal.RefValue.ref_layer1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)),
    Cert.ReferenceIdeal.RefValue.ref_layer2 _ (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)),
    Cert.ReferenceIdeal.RefValue.ref_layer2 _ (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))]
  rfl

end Cert.Bridge

end
-- ==== Proof.lean ====
/-
  The certificate of a two-layer graph convolution: a kernel that computes each layer's two dense projections at once
  (stacked weights, the result cut in two) in three pipelined regions, with the neighbour aggregation done by the host
  as ONE accumulating scatter over the edge list read both ways, against the reference's two dense projections and two
  accumulating scatters per layer.

  Frames: the kernel's two programs by their generated frame certificates; the reference's by its generated run with the
  result dropped.  The idealization rewrote nothing, so the preserved-meaning conjunct is trivial.  The algebraic
  conjunct: the kernel's run with the result named (the last region's array after its write-backs, read back through
  the run's fold to one function of the arguments), the reference's generated run, and the equality of the two functions
  on the extended reals — the first and last columns of a dense layer against stacked weights are the two dense layers,
  and a sum over a concatenated update list splits into the sums over its two halves.
-/
import proofs.«110151_j90297392431231_1_alg».proof.Defs
import proofs.«110151_j90297392431231_1_alg».proof.Proof.Gen.Kernel
import proofs.«110151_j90297392431231_1_alg».proof.Proof.Gen.Kernel.Frame
import proofs.«110151_j90297392431231_1_alg».proof.Proof.Gen.KernelIdeal
import proofs.«110151_j90297392431231_1_alg».proof.Proof.Gen.KernelIdeal.Frame
import proofs.«110151_j90297392431231_1_alg».proof.Proof.Gen.ReferenceIdeal
import proofs.«110151_j90297392431231_1_alg».proof.Proof.Gen.ReferenceIdeal.Run
import proofs.«110151_j90297392431231_1_alg».proof.Proof.Gen.Pre_finite_inputs
import proofs.«110151_j90297392431231_1_alg».proof.Proof.KernelRun
import proofs.«110151_j90297392431231_1_alg».proof.Proof.KernelValue
import proofs.«110151_j90297392431231_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at one function of the argument arrays: the kernel's run with its result named and read back,
    the reference's run, and the equality of the two functions. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.KValue.W6_result m ρ c), (h c).2⟩)
      (Cert.KernelIdeal.GenRun.run_named (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.Bridge.ref_eq, h0, h1, h2, h3, h4, h5, h6, h7, h8, h9]
  exact (Cert.Bridge.out_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
